-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S64 : Shape := ⟨1, ![64]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S32x64x128x128 .f32) (main_arg1 : FVec F S64 .f32) (main_arg2 : FVec F S64 .f32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32x64x128x128 : Shape := ⟨4, ![32, 64, 128, 128]⟩
abbrev S64 : Shape := ⟨1, ![64]⟩
abbrev S32x64x16384 : Shape := ⟨3, ![32, 64, 16384]⟩
abbrev S32x64x64 : Shape := ⟨3, ![32, 64, 64]⟩
abbrev S32x1x1 : Shape := ⟨3, ![32, 1, 1]⟩
abbrev S1x64x16384 : Shape := ⟨3, ![1, 64, 16384]⟩
abbrev S1x64x64 : Shape := ⟨3, ![1, 64, 64]⟩
abbrev S1x1x1 : Shape := ⟨3, ![1, 1, 1]⟩
abbrev S64x16384 : Shape := ⟨2, ![64, 16384]⟩
abbrev S64x1 : Shape := ⟨2, ![64, 1]⟩
abbrev S64x64 : Shape := ⟨2, ![64, 64]⟩
abbrev S1 : Shape := ⟨1, ![1]⟩
abbrev S1x1 : Shape := ⟨2, ![1, 1]⟩
abbrev S_ : Shape := ⟨0, ![]⟩

abbrev nBuf : Space → Nat
  | .hbm => 71
  | .vmem => 14
  | .smem => 0
  | _ => 0

abbrev bufTy : (tb : Table) → Fin (tcTables nBuf tb) → BufTy
  | .hbm, ⟨0, _⟩ => ⟨S32x64x128x128, .f32⟩
  | .hbm, ⟨1, _⟩ => ⟨S64, .f32⟩
  | .hbm, ⟨2, _⟩ => ⟨S64, .f32⟩
  | .hbm, ⟨3, _⟩ => ⟨S32x64x16384, .f32⟩
  | .hbm, ⟨4, _⟩ => ⟨S32x64x64, .f32⟩
  | .hbm, ⟨5, _⟩ => ⟨S32x1x1, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S32x64x64, .f32⟩
  | .hbm, ⟨14, _⟩ => ⟨S32x64x64, .f32⟩
  | .hbm, ⟨15, _⟩ => ⟨S32x64x64, .f32⟩
  | .hbm, ⟨16, _⟩ => ⟨S_, .f32⟩
  | .hbm, ⟨17, _⟩ => ⟨S32x64x64, .f32⟩
  | .hbm, ⟨18, _⟩ => ⟨S32x64x64, .f32⟩
  | .hbm, ⟨19, _⟩ => ⟨S32x64x64, .f32⟩
  | .hbm, ⟨20, _⟩ => ⟨S_, .f32⟩
  | .hbm, ⟨21, _⟩ => ⟨S32x64x64, .f32⟩
  | .hbm, ⟨22, _⟩ => ⟨S32x64x64, .f32⟩
  | .hbm, ⟨23, _⟩ => ⟨S32x64x64, .f32⟩
  | .hbm, ⟨24, _⟩ => ⟨S32x64x64, .f32⟩
  | .hbm, ⟨25, _⟩ => ⟨S32x64x64, .f32⟩
  | .hbm, ⟨26, _⟩ => ⟨S_, .f32⟩
  | .hbm, ⟨27, _⟩ => ⟨S32x64x64, .f32⟩
  | .hbm, ⟨28, _⟩ => ⟨S32x64x64, .f32⟩
  | .hbm, ⟨29, _⟩ => ⟨S32x64x64, .f32⟩
  | .hbm, ⟨30, _⟩ => ⟨S_, .f32⟩
  | .hbm, ⟨31, _⟩ => ⟨S32x64x64, .f32⟩
  | .hbm, ⟨32, _⟩ => ⟨S32x64x64, .f32⟩
  | .hbm, ⟨33, _⟩ => ⟨S32x64x64, .f32⟩
  | .hbm, ⟨34, _⟩ => ⟨S32x64x64, .f32⟩
  | .hbm, ⟨35, _⟩ => ⟨S32x64x64, .f32⟩
  | .hbm, ⟨36, _⟩ => ⟨S_, .f32⟩
  | .hbm, ⟨37, _⟩ => ⟨S32x64x64, .f32⟩
  | .hbm, ⟨38, _⟩ => ⟨S32x64x64, .f32⟩
  | .hbm, ⟨39, _⟩ => ⟨S32x64x64, .f32⟩
  | .hbm, ⟨40, _⟩ => ⟨S_, .f32⟩
  | .hbm, ⟨41, _⟩ => ⟨S32x64x64, .f32⟩
  | .hbm, ⟨42, _⟩ => ⟨S32x64x64, .f32⟩
  | .hbm, ⟨43, _⟩ => ⟨S32x64x64, .f32⟩
  | .hbm, ⟨44, _⟩ => ⟨S32x64x64, .f32⟩
  | .hbm, ⟨45, _⟩ => ⟨S32x64x64, .f32⟩
  | .hbm, ⟨46, _⟩ => ⟨S_, .f32⟩
  | .hbm, ⟨47, _⟩ => ⟨S32x64x64, .f32⟩
  | .hbm, ⟨48, _⟩ => ⟨S32x64x64, .f32⟩
  | .hbm, ⟨49, _⟩ => ⟨S32x64x64, .f32⟩
  | .hbm, ⟨50, _⟩ => ⟨S_, .f32⟩
  | .hbm, ⟨51, _⟩ => ⟨S32x64x64, .f32⟩
  | .hbm, ⟨52, _⟩ => ⟨S32x64x64, .f32⟩
  | .hbm, ⟨53, _⟩ => ⟨S32x64x64, .f32⟩
  | .hbm, ⟨54, _⟩ => ⟨S32x64x64, .f32⟩
  | .hbm, ⟨55, _⟩ => ⟨S32x64x64, .f32⟩
  | .hbm, ⟨56, _⟩ => ⟨S_, .f32⟩
  | .hbm, ⟨57, _⟩ => ⟨S32x64x64, .f32⟩
  | .hbm, ⟨58, _⟩ => ⟨S32x64x64, .f32⟩
  | .hbm, ⟨59, _⟩ => ⟨S32x64x64, .f32⟩
  | .hbm, ⟨60, _⟩ => ⟨S_, .f32⟩
  | .hbm, ⟨61, _⟩ => ⟨S32x64x64, .f32⟩
  | .hbm, ⟨62, _⟩ => ⟨S32x64x64, .f32⟩
  | .hbm, ⟨63, _⟩ => ⟨S32x64x64, .f32⟩
  | .hbm, ⟨64, _⟩ => ⟨S32x1x1, .f32⟩
  | .hbm, ⟨65, _⟩ => ⟨S32x64x64, .f32⟩
  | .hbm, ⟨66, _⟩ => ⟨S32x64x64, .f32⟩
  | .hbm, ⟨67, _⟩ => ⟨S64x1, .f32⟩
  | .hbm, ⟨68, _⟩ => ⟨S64x1, .f32⟩
  | .hbm, ⟨69, _⟩ => ⟨S32x64x16384, .f32⟩
  | .hbm, ⟨70, _⟩ => ⟨S32x64x128x128, .f32⟩
  | .local _ .vmem, ⟨0, _⟩ => ⟨S1x64x16384, .f32⟩
  | .local _ .vmem, ⟨1, _⟩ => ⟨S1x64x16384, .f32⟩
  | .local _ .vmem, ⟨2, _⟩ => ⟨S1x64x64, .f32⟩
  | .local _ .vmem, ⟨3, _⟩ => ⟨S1x64x64, .f32⟩
  | .local _ .vmem, ⟨4, _⟩ => ⟨S1x1x1, .f32⟩
  | .local _ .vmem, ⟨5, _⟩ => ⟨S1x1x1, .f32⟩
  | .local _ .vmem, ⟨6, _⟩ => ⟨S1x64x16384, .f32⟩
  | .local _ .vmem, ⟨7, _⟩ => ⟨S1x64x16384, .f32⟩
  | .local _ .vmem, ⟨8, _⟩ => ⟨S1x64x64, .f32⟩
  | .local _ .vmem, ⟨9, _⟩ => ⟨S1x64x64, .f32⟩
  | .local _ .vmem, ⟨10, _⟩ => ⟨S64x1, .f32⟩
  | .local _ .vmem, ⟨11, _⟩ => ⟨S64x1, .f32⟩
  | .local _ .vmem, ⟨12, _⟩ => ⟨S1x64x16384, .f32⟩
  | .local _ .vmem, ⟨13, _⟩ => ⟨S1x64x16384, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x64x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32x64x128x128_S32x64x16384 : S32x64x128x128.ShapeCasts S32x64x16384
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  reduces_S64x16384_S64 : S64x16384.Reduces [1] S64
  shapeCasts_S64_S64x1 : S64.ShapeCasts S64x1
  broadcasts_S64x1_S64x16384 : S64x1.Broadcasts S64x16384
  bitsLt_bf16_f32 : FTy.bits .bf16 < FTy.bits .f32
  iota_S64x64_d0_w32 : S64x64.Iotas .tc 32 [0]
  iota_S64x64_d1_w32 : S64x64.Iotas .tc 32 [1]
  natLt_1_32 : 1 < 32
  reduces_S64x64_S64 : S64x64.Reduces [1] S64
  reduces_S64x1_S1 : S64x1.Reduces [0] S1
  shapeCasts_S1_S1x1 : S1.ShapeCasts S1x1
  broadcasts_S1x1_S64x64 : S1x1.Broadcasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  bcast_S_S64x64 : S_.BroadcastsInDim S64x64 (![] : Fin 0 → Fin S64x64.rank)
  bcast_S64x64_S32x64x64_1_2 : S64x64.BroadcastsInDim S32x64x64 (![1, 2] : Fin 2 → Fin S32x64x64.rank)
  bcast_S_S32x64x64 : S_.BroadcastsInDim S32x64x64 (![] : Fin 0 → Fin S32x64x64.rank)
  bcast_S32x1x1_S32x64x64_0_1_2 : S32x1x1.BroadcastsInDim S32x64x64 (![0, 1, 2] : Fin 3 → Fin S32x64x64.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x16384_S1x64x16384 : S64x16384.ShapeCasts S1x64x16384
  shapeCasts_S32x64x16384_S32x64x128x128 : S32x64x16384.ShapeCasts S32x64x128x128
  dot_S64x16384_S64x16384_S64x64_1_1_0_0_n_n_wf : DotDims.WF S64x16384 S64x16384 S64x64 [1] [1] [0] [0] [] []
  dot_S32x64x64_S32x64x64_S32x64x64_2_1_1_2_0_0_wf : DotDims.WF S32x64x64 S32x64x64 S32x64x64 [2] [1] [1] [2] [0] [0]
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S32x64x16384.size a
  hwx0_0 : ∀ i : grid0.Coords, EltTy.bits .f32 = 32 ∨ (Rect.block (s := S32x64x16384) S1x64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S32x64x64.size a
  hwx0_1 : ∀ i : grid0.Coords, EltTy.bits .f32 = 32 ∨ (Rect.block (s := S32x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x16384.size a ≤ S32x64x16384.size a
  hwx1_0 : ∀ i : grid1.Coords, EltTy.bits .f32 = 32 ∨ (Rect.block (s := S32x64x16384) S1x64x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S32x64x64.size a
  hwx1_1 : ∀ i : grid1.Coords, EltTy.bits .f32 = 32 ∨ (Rect.block (s := S32x64x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x16384.size a ≤ S32x64x16384.size a
  hwx1_4 : ∀ i : grid1.Coords, EltTy.bits .f32 = 32 ∨ (Rect.block (s := S32x64x16384) S1x64x16384.size (cc1_transform_4 i) (hinb1_4 i)).WholeWords (EltTy.packing .f32)

variable [Facts₀]

def dot_S64x16384_S64x16384_S64x64_1_1_0_0_n_n : DotDims S64x16384 S64x16384 S64x64 where
  lhsContracting := [1]
  rhsContracting := [1]
  lhsNonContracting := [0]
  rhsNonContracting := [0]
  lhsBatch := []
  rhsBatch := []
  wf := dot_S64x16384_S64x16384_S64x64_1_1_0_0_n_n_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x64x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x64x16384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x64x128x128 : Shape := ⟨4, ![32, 64, 128, 128]⟩
abbrev S64 : Shape := ⟨1, ![64]⟩
abbrev S32x64x16384 : Shape := ⟨3, ![32, 64, 16384]⟩
abbrev S_ : Shape := ⟨0, ![]⟩
abbrev S32x64 : Shape := ⟨2, ![32, 64]⟩
abbrev S32x64x1 : Shape := ⟨3, ![32, 64, 1]⟩
abbrev S64x64 : Shape := ⟨2, ![64, 64]⟩
abbrev S32x64x64 : Shape := ⟨3, ![32, 64, 64]⟩
abbrev S1x64x64 : Shape := ⟨3, ![1, 64, 64]⟩
abbrev S32 : Shape := ⟨1, ![32]⟩
abbrev S32x1x1 : Shape := ⟨3, ![32, 1, 1]⟩
abbrev S1x64x1x1 : Shape := ⟨4, ![1, 64, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S64, .f32⟩
  | .hbm, ⟨2, _⟩ => ⟨S64, .f32⟩
  | .hbm, ⟨3, _⟩ => ⟨S32x64x16384, .f32⟩
  | .hbm, ⟨4, _⟩ => ⟨S_, .f32⟩
  | .hbm, ⟨5, _⟩ => ⟨S32x64, .f32⟩
  | .hbm, ⟨6, _⟩ => ⟨S32x64x1, .f32⟩
  | .hbm, ⟨7, _⟩ => ⟨S_, .f32⟩
  | .hbm, ⟨8, _⟩ => ⟨S32x64x1, .f32⟩
  | .hbm, ⟨9, _⟩ => ⟨S32x64x1, .f32⟩
  | .hbm, ⟨10, _⟩ => ⟨S32x64x16384, .f32⟩
  | .hbm, ⟨11, _⟩ => ⟨S32x64x16384, .f32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S32x64x64, .f32⟩
  | .hbm, ⟨20, _⟩ => ⟨S_, .f32⟩
  | .hbm, ⟨21, _⟩ => ⟨S32x64x64, .f32⟩
  | .hbm, ⟨22, _⟩ => ⟨S32x64x64, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S1x64x64, .f32⟩
  | .hbm, ⟨27, _⟩ => ⟨S32x64x64, .f32⟩
  | .hbm, ⟨28, _⟩ => ⟨S32x64x64, .f32⟩
  | .hbm, ⟨29, _⟩ => ⟨S64x64, .i32⟩
  | .hbm, ⟨30, _⟩ => ⟨S64x64, .i32⟩
  | .hbm, ⟨31, _⟩ => ⟨S_, .i32⟩
  | .hbm, ⟨32, _⟩ => ⟨S64x64, .i32⟩
  | .hbm, ⟨33, _⟩ => ⟨S64x64, .i32⟩
  | .hbm, ⟨34, _⟩ => ⟨S64x64, .i1⟩
  | .hbm, ⟨35, _⟩ => ⟨S_, .f32⟩
  | .hbm, ⟨36, _⟩ => ⟨S32x64x64, .f32⟩
  | .hbm, ⟨37, _⟩ => ⟨S32x64x64, .i1⟩
  | .hbm, ⟨38, _⟩ => ⟨S32x64x64, .f32⟩
  | .hbm, ⟨39, _⟩ => ⟨S_, .f32⟩
  | .hbm, ⟨40, _⟩ => ⟨S32, .f32⟩
  | .hbm, ⟨41, _⟩ => ⟨S32x1x1, .f32⟩
  | .hbm, ⟨42, _⟩ => ⟨S_, .f32⟩
  | .hbm, ⟨43, _⟩ => ⟨S32x1x1, .f32⟩
  | .hbm, ⟨44, _⟩ => ⟨S32x1x1, .f32⟩
  | .hbm, ⟨45, _⟩ => ⟨S32x64x64, .f32⟩
  | .hbm, ⟨46, _⟩ => ⟨S32x64x64, .f32⟩
  | .hbm, ⟨47, _⟩ => ⟨S32x64x64, .f32⟩
  | .hbm, ⟨48, _⟩ => ⟨S32x64x64, .f32⟩
  | .hbm, ⟨49, _⟩ => ⟨S32x64x64, .f32⟩
  | .hbm, ⟨50, _⟩ => ⟨S_, .f32⟩
  | .hbm, ⟨51, _⟩ => ⟨S32x64x64, .f32⟩
  | .hbm, ⟨52, _⟩ => ⟨S32x64x64, .f32⟩
  | .hbm, ⟨53, _⟩ => ⟨S32x64x64, .f32⟩
  | .hbm, ⟨54, _⟩ => ⟨S_, .f32⟩
  | .hbm, ⟨55, _⟩ => ⟨S32x64x64, .f32⟩
  | .hbm, ⟨56, _⟩ => ⟨S32x64x64, .f32⟩
  | .hbm, ⟨57, _⟩ => ⟨S32x64x64, .f32⟩
  | .hbm, ⟨58, _⟩ => ⟨S32x64x64, .f32⟩
  | .hbm, ⟨59, _⟩ => ⟨S32x64x64, .f32⟩
  | .hbm, ⟨60, _⟩ => ⟨S_, .f32⟩
  | .hbm, ⟨61, _⟩ => ⟨S32x64x64, .f32⟩
  | .hbm, ⟨62, _⟩ => ⟨S32x64x64, .f32⟩
  | .hbm, ⟨63, _⟩ => ⟨S32x64x64, .f32⟩
  | .hbm, ⟨64, _⟩ => ⟨S_, .f32⟩
  | .hbm, ⟨65, _⟩ => ⟨S32x64x64, .f32⟩
  | .hbm, ⟨66, _⟩ => ⟨S32x64x64, .f32⟩
  | .hbm, ⟨67, _⟩ => ⟨S32x64x64, .f32⟩
  | .hbm, ⟨68, _⟩ => ⟨S32x64x64, .f32⟩
  | .hbm, ⟨69, _⟩ => ⟨S32x64x64, .f32⟩
  | .hbm, ⟨70, _⟩ => ⟨S_, .f32⟩
  | .hbm, ⟨71, _⟩ => ⟨S32x64x64, .f32⟩
  | .hbm, ⟨72, _⟩ => ⟨S32x64x64, .f32⟩
  | .hbm, ⟨73, _⟩ => ⟨S32x64x64, .f32⟩
  | .hbm, ⟨74, _⟩ => ⟨S_, .f32⟩
  | .hbm, ⟨75, _⟩ => ⟨S32x64x64, .f32⟩
  | .hbm, ⟨76, _⟩ => ⟨S32x64x64, .f32⟩
  | .hbm, ⟨77, _⟩ => ⟨S32x64x64, .f32⟩
  | .hbm, ⟨78, _⟩ => ⟨S32x64x64, .f32⟩
  | .hbm, ⟨79, _⟩ => ⟨S32x64x64, .f32⟩
  | .hbm, ⟨80, _⟩ => ⟨S_, .f32⟩
  | .hbm, ⟨81, _⟩ => ⟨S32x64x64, .f32⟩
  | .hbm, ⟨82, _⟩ => ⟨S32x64x64, .f32⟩
  | .hbm, ⟨83, _⟩ => ⟨S32x64x64, .f32⟩
  | .hbm, ⟨84, _⟩ => ⟨S_, .f32⟩
  | .hbm, ⟨85, _⟩ => ⟨S32x64x64, .f32⟩
  | .hbm, ⟨86, _⟩ => ⟨S32x64x64, .f32⟩
  | .hbm, ⟨87, _⟩ => ⟨S32x64x64, .f32⟩
  | .hbm, ⟨88, _⟩ => ⟨S32x64x64, .f32⟩
  | .hbm, ⟨89, _⟩ => ⟨S32x64x64, .f32⟩
  | .hbm, ⟨90, _⟩ => ⟨S_, .f32⟩
  | .hbm, ⟨91, _⟩ => ⟨S32x64x64, .f32⟩
  | .hbm, ⟨92, _⟩ => ⟨S32x64x64, .f32⟩
  | .hbm, ⟨93, _⟩ => ⟨S32x64x64, .f32⟩
  | .hbm, ⟨94, _⟩ => ⟨S_, .f32⟩
  | .hbm, ⟨95, _⟩ => ⟨S32x64x64, .f32⟩
  | .hbm, ⟨96, _⟩ => ⟨S32x64x64, .f32⟩
  | .hbm, ⟨97, _⟩ => ⟨S32x64x64, .f32⟩
  | .hbm, ⟨98, _⟩ => ⟨S32x1x1, .f32⟩
  | .hbm, ⟨99, _⟩ => ⟨S32x64x64, .f32⟩
  | .hbm, ⟨100, _⟩ => ⟨S32x64x64, .f32⟩
  | .hbm, ⟨101, _⟩ => ⟨S32x64x16384, .f32⟩
  | .hbm, ⟨102, _⟩ => ⟨S32x64x128x128, .f32⟩
  | .hbm, ⟨103, _⟩ => ⟨S1x64x1x1, .f32⟩
  | .hbm, ⟨104, _⟩ => ⟨S32x64x128x128, .f32⟩
  | .hbm, ⟨105, _⟩ => ⟨S32x64x128x128, .f32⟩
  | .hbm, ⟨106, _⟩ => ⟨S1x64x1x1, .f32⟩
  | .hbm, ⟨107, _⟩ => ⟨S32x64x128x128, .f32⟩
  | .hbm, ⟨108, _⟩ => ⟨S32x64x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_c : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_call0_call0_v0 : Ref sig .tc := ⟨.hbm, 37, rfl⟩
abbrev main_call0_v6 : Ref sig .tc := ⟨.hbm, 38, rfl⟩
abbrev main_call0_cst_0 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  shapeCasts_S32x64x128x128_S32x64x16384 : S32x64x128x128.ShapeCasts S32x64x16384
  reducesTo_S32x64x16384_S32x64_d2 : S32x64x16384.ReducesTo [2] S32x64
  h_S_ : 0 < S_.numel
  bcast_S32x64_S32x64x1_0_1 : S32x64.BroadcastsInDim S32x64x1 (![0, 1] : Fin 2 → Fin S32x64x1.rank)
  bcast_S_S32x64x1 : S_.BroadcastsInDim S32x64x1 (![] : Fin 0 → Fin S32x64x1.rank)
  bcast_S32x64x1_S32x64x16384_0_1_2 : S32x64x1.BroadcastsInDim S32x64x16384 (![0, 1, 2] : Fin 3 → Fin S32x64x16384.rank)
  bcast_S_S64x64 : S_.BroadcastsInDim S64x64 (![] : Fin 0 → Fin S64x64.rank)
  bcast_S_S32x64x64 : S_.BroadcastsInDim S32x64x64 (![] : Fin 0 → Fin S32x64x64.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  bcast_S64x64_S32x64x64_1_2 : S64x64.BroadcastsInDim S32x64x64 (![1, 2] : Fin 2 → Fin S32x64x64.rank)
  reducesTo_S32x64x64_S32_d1_2 : S32x64x64.ReducesTo [1, 2] S32
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S32x1x1_S32x64x64_0_1_2 : S32x1x1.BroadcastsInDim S32x64x64 (![0, 1, 2] : Fin 3 → Fin S32x64x64.rank)
  shapeCasts_S32x64x16384_S32x64x128x128 : S32x64x16384.ShapeCasts S32x64x128x128
  bcast_S64_S1x64x1x1_1 : S64.BroadcastsInDim S1x64x1x1 (![1] : Fin 1 → Fin S1x64x1x1.rank)
  bcast_S1x64x1x1_S32x64x128x128_0_1_2_3 : S1x64x1x1.BroadcastsInDim S32x64x128x128 (![0, 1, 2, 3] : Fin 4 → Fin S32x64x128x128.rank)
  dot_S32x64x16384_S32x64x16384_S32x64x64_2_2_1_1_0_0_wf : DotDims.WF S32x64x16384 S32x64x16384 S32x64x64 [2] [2] [1] [1] [0] [0]
  dot_S32x64x64_S32x64x64_S32x64x64_2_1_1_2_0_0_wf : DotDims.WF S32x64x64 S32x64x64 S32x64x64 [2] [1] [1] [2] [0] [0]
  dot_S32x64x64_S32x64x16384_S32x64x16384_2_1_1_2_0_0_wf : DotDims.WF S32x64x64 S32x64x16384 S32x64x16384 [2] [1] [1] [2] [0] [0]

variable [Facts₀]

def dot_S32x64x16384_S32x64x16384_S32x64x64_2_2_1_1_0_0 : DotDims S32x64x16384 S32x64x16384 S32x64x64 where
  lhsContracting := [2]
  rhsContracting := [2]
  lhsNonContracting := [1]
  rhsNonContracting := [1]
  lhsBatch := [0]
  rhsBatch := [0]
  wf := dot_S32x64x16384_S32x64x16384_S32x64x64_2_2_1_1_0_0_wf
def dot_S32x64x64_S32x64x64_S32x64x64_2_1_1_2_0_0 : DotDims S32x64x64 S32x64x64 S32x64x64 where
  lhsContracting := [2]
  rhsContracting := [1]
  lhsNonContracting := [1]
  rhsNonContracting := [2]
  lhsBatch := [0]
  rhsBatch := [0]
  wf := dot_S32x64x64_S32x64x64_S32x64x64_2_1_1_2_0_0_wf
def dot_S32x64x64_S32x64x16384_S32x64x16384_2_1_1_2_0_0 : DotDims S32x64x64 S32x64x16384 S32x64x16384 where
  lhsContracting := [2]
  rhsContracting := [1]
  lhsNonContracting := [1]
  rhsNonContracting := [2]
  lhsBatch := [0]
  rhsBatch := [0]
  wf := dot_S32x64x64_S32x64x16384_S32x64x16384_2_1_1_2_0_0_wf

class Facts : Prop extends Facts₀ where

variable [Facts]
-- ==== Proof.Spec.lean ====
/-
  The mathematics both programs compute, one sample at a time, on the extended reals.

  A sample is a matrix `y` of 64 channels by 16384 positions. Its rows are centred by their means, the Gram matrix of
  the centred rows is divided by 16384 and a small multiple of the identity is added (`cov`); the reciprocal `rtr` of
  that matrix's trace scales it (`covn`). The trace is written as the double sum of the matrix masked to its diagonal,
  which is how both programs take it. A whitening matrix `wm` (computed from `covn` and `rtr` by the same host
  operations on both sides, so never opened here) multiplies the centred sample, and a per-channel scale and shift
  follow (`out`).

  The array-level functions read a batch of 32 samples laid out as [32, 64, 16384] one sample at a time.
-/
import Idealize.ShloMosaic.PureOps.Ideal
import Idealize.ShloMosaic.PureOps.Ideal.Laws
import Idealize.ShloMosaic.Lib.ValueIdx

noncomputable section

namespace Whiten

open Idealize.ShloMosaic Idealize.ShloMosaic.ValueIdx

/-- One sample: channels by positions. -/
abbrev Slice := Fin 64 → Fin 16384 → EReal
/-- A channels-by-channels matrix. -/
abbrev Mat := Fin 64 → Fin 64 → EReal

/-- The float 16384.0. -/
def n16384 : EReal := Ideal.ofBits .f32 0x46800000#32
/-- The float nearest 1e-5. -/
def eps : EReal := Ideal.ofBits .f32 0x3727C5AC#32
/-- The float 1.0. -/
def one : EReal := Ideal.ofBits .f32 0x3F800000#32

/-- A row's mean: its sum divided by 16384. -/
def mean (y : Slice) (c : Fin 64) : EReal := Ideal.div (∑ s : Fin 16384, y c s) n16384
/-- The centred sample. -/
def xc (y : Slice) (c : Fin 64) (s : Fin 16384) : EReal := y c s - mean y c
/-- The Gram matrix of the centred rows. -/
def gram (y : Slice) (c d : Fin 64) : EReal := ∑ s : Fin 16384, xc y c s * xc y d s
/-- The diagonal test, as the one-bit word both programs compute: row number equals column number. -/
def diagBit (c d : Fin 64) : BitVec 1 := IntOp.cmpi .eq (BitVec.ofNat 32 c.val) (BitVec.ofNat 32 d.val)
/-- The identity matrix's entry: the diagonal bit read as a number. -/
def eye (c d : Fin 64) : EReal := (((diagBit c d).toNat : ℝ) : EReal)
/-- The regularised covariance. -/
def cov (y : Slice) (c d : Fin 64) : EReal := Ideal.div (gram y c d) n16384 + eps * eye c d
/-- Its trace: the double sum of the matrix masked to the diagonal. -/
def tr (y : Slice) : EReal := ∑ c : Fin 64, ∑ d : Fin 64, Scalar.select (diagBit c d) (cov y c d) (0 : EReal)
/-- The reciprocal of the trace. -/
def rtr (y : Slice) : EReal := Ideal.div one (tr y)
/-- The trace-normalised covariance. -/
def covn (y : Slice) (c d : Fin 64) : EReal := cov y c d * rtr y
/-- The whitened, scaled and shifted sample, from a whitening matrix `wm`. -/
def out (y : Slice) (wm : Mat) (w b : Fin 64 → EReal) (c : Fin 64) (s : Fin 16384) : EReal :=
  (∑ d : Fin 64, wm c d * xc y d s) * w c + b c

/-! ## The batch, as arrays -/

abbrev SX : Shape := ⟨3, ![32, 64, 16384]⟩
abbrev SC : Shape := ⟨3, ![32, 64, 64]⟩
abbrev SR : Shape := ⟨3, ![32, 1, 1]⟩
abbrev SW : Shape := ⟨2, ![64, 1]⟩
abbrev SV : Shape := ⟨1, ![64]⟩
abbrev SO : Shape := ⟨4, ![32, 64, 128, 128]⟩

/-- Sample `n` of the batch. -/
def slice (X : SX.Idx → EReal) (n : Fin 32) : Slice := fun c s => X (ix3 n c s)
/-- Sample `n`'s matrix out of a batch of matrices. -/
def mat (M : SC.Idx → EReal) (n : Fin 32) : Mat := fun c d => M (ix3 n c d)

/-- The normalised covariances of the batch. -/
def covnArr (X : SX.Idx → EReal) : SC.Idx → EReal := fun i => covn (slice X (i 0)) (i 1) (i 2)
/-- The trace reciprocals of the batch. -/
def rtrArr (X : SX.Idx → EReal) : SR.Idx → EReal := fun i => rtr (slice X (i 0))
/-- The output in the [32, 64, 16384] layout, the scale and shift given as [64, 1] columns. -/
def outArr (X : SX.Idx → EReal) (Wm : SC.Idx → EReal) (w2 b2 : SW.Idx → EReal) : SX.Idx → EReal :=
  fun i => out (slice X (i 0)) (mat Wm (i 0)) (fun c => w2 (ix2 c (0 : Fin 1))) (fun c => b2 (ix2 c (0 : Fin 1))) (i 1) (i 2)
/-- A position from its row and column in the 128 by 128 image. -/
def pos (h w : Fin 128) : Fin 16384 := ⟨h.val * 128 + w.val, by have := h.isLt; have := w.isLt; omega⟩
/-- The output in the [32, 64, 128, 128] layout, the scale and shift given as [64] vectors. -/
def outArr4 (X : SX.Idx → EReal) (Wm : SC.Idx → EReal) (a1 a2 : SV.Idx → EReal) : SO.Idx → EReal :=
  fun i => out (slice X (i 0)) (mat Wm (i 0)) (fun c => a1 (ix1 c)) (fun c => a2 (ix1 c)) (i 1) (pos (i 2) (i 3))

/-! ## Constants -/

theorem n16384_eq : n16384 = ((16384 : ℝ) : EReal) := by
  unfold n16384; simp [Ideal.ofBits, Ideal.ieee, -EReal.coe_mul]; norm_num

theorem inv16384_eq : Ideal.ofBits .f32 0x38800000#32 = ((1 / 16384 : ℝ) : EReal) := by
  simp [Ideal.ofBits, Ideal.ieee, -EReal.coe_mul]; norm_num

/-- Multiplying by the float 2⁻¹⁴ is dividing by the float 16384, on every extended real. -/
theorem mul_inv16384 (g : EReal) : g * Ideal.ofBits .f32 0x38800000#32 = Ideal.div g n16384 := by
  rw [n16384_eq, inv16384_eq, Ideal.div_coe (by norm_num : (16384 : ℝ) ≠ 0)]

end Whiten

end
-- ==== Proof.KTerm.lean ====
/-
  The kernel program's host operations as pure terms: the batch reshaped to [32, 64, 16384]; the diagonal mask, the
  identity and the batch of identities; five Newton-Schulz steps from the identity over the normalised covariances the
  first kernel wrote; the whitening matrices (the last iterate scaled by the square roots of the trace reciprocals); the
  per-channel scale and shift as [64, 1] columns; the second kernel's result reshaped to [32, 64, 128, 128].
-/
import proofs.«102350_j29016799052491_1_alg».proof.Proof.Gen.KernelIdeal
import proofs.«102350_j29016799052491_1_alg».proof.Proof.Spec

noncomputable section

namespace Cert.KernelIdeal.KValue

open Idealize.ShloMosaic Cert.KernelIdeal Cert.KernelIdeal.Facts₀

variable {F : FTy → Type} [FloatOps F]

/-- The batch as [32, 64, 16384]. -/
def xin (a0 : FVec F S32x64x128x128 .f32) : FVec F S32x64x16384 .f32 :=
  shapeCast S32x64x16384 a0 shapeCasts_S32x64x128x128_S32x64x16384

/-- The diagonal mask of a 64 by 64 matrix. -/
def diag : IVec S64x64 1 :=
  cmpi .eq (addi (iotaInDim S64x64 32 0) (broadcastInDim S64x64 ![] bcast_S_S64x64 (constantI S_ 32 0#32))) (iotaInDim S64x64 32 1)

/-- The 64 by 64 identity. -/
def eye64 : FVec F S64x64 .f32 := uitofp .f32 diag

/-- The batch of identities the iteration starts from. -/
def p0 : FVec F S32x64x64 .f32 := broadcastInDim S32x64x64 ![1, 2] bcast_S64x64_S32x64x64_1_2 eye64

/-- The batched matrix product. -/
def dotM (l r : FVec F S32x64x64 .f32) : FVec F S32x64x64 .f32 :=
  Host.dotGeneral dot_S32x64x64_S32x64x64_S32x64x64_2_1_1_2_0_0 (some .fp32) l r

/-- One Newton-Schulz step: 1.5 P - 0.5 ((P P) P) Cn. -/
def nsStep (Cn P : FVec F S32x64x64 .f32) : FVec F S32x64x64 .f32 :=
  subf (mulf (broadcastInDim S32x64x64 ![] bcast_S_S32x64x64 (constant S_ .f32 0x3FC00000#32)) P)
    (mulf (broadcastInDim S32x64x64 ![] bcast_S_S32x64x64 (constant S_ .f32 0x3F000000#32)) (dotM (dotM (dotM P P) P) Cn))

/-- The whitening matrices: five steps, then scaled by the square roots of the trace reciprocals. -/
def wmv (Cn : FVec F S32x64x64 .f32) (R : FVec F S32x1x1 .f32) : FVec F S32x64x64 .f32 :=
  mulf (nsStep Cn (nsStep Cn (nsStep Cn (nsStep Cn (nsStep Cn p0)))))
    (broadcastInDim S32x64x64 ![0, 1, 2] bcast_S32x1x1_S32x64x64_0_1_2 (Host.sqrt R))

/-- A [64] vector as a [64, 1] column. -/
def col (a : FVec F S64 .f32) : FVec F S64x1 .f32 := shapeCast S64x1 a shapeCasts_S64_S64x1

/-- [32, 64, 16384] back to [32, 64, 128, 128]. -/
def out4 (O : FVec F S32x64x16384 .f32) : FVec F S32x64x128x128 .f32 :=
  shapeCast S32x64x128x128 O shapeCasts_S32x64x16384_S32x64x128x128

/-- The whole kernel program's result at the extended reals, the two kernels' arrays read through the shared
    specification. -/
def result (a0 : FVec Ideal S32x64x128x128 .f32) (a1 a2 : FVec Ideal S64 .f32) : FVec Ideal S32x64x128x128 .f32 :=
  out4 (F := Ideal) (Whiten.outArr (xin (F := Ideal) a0) (wmv (F := Ideal) (Whiten.covnArr (xin (F := Ideal) a0)) (Whiten.rtrArr (xin (F := Ideal) a0)))
    (col (F := Ideal) a1) (col (F := Ideal) a2))

end Cert.KernelIdeal.KValue

end
-- ==== Proof.KHost.lean ====
/-
  The kernel program's run read back to its arguments. Between the launch and the return the buffer contents pass five
  boundaries: after the first host stretch (the batch reshaped), after the covariance kernel (its two output arrays
  written), after the second host stretch (the Newton-Schulz iteration and the two columns), after the whitening
  kernel (its output array written), after the last reshape. Each boundary's contents at the buffers the result
  depends on are read here, last to first, down to the three argument arrays.
-/
import proofs.«102350_j29016799052491_1_alg».proof.Proof.Gen.KernelIdeal.Frame
import proofs.«102350_j29016799052491_1_alg».proof.Proof.KTerm
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first host stretch: the batch reshaped; the arguments untouched -/

theorem V1_v0 (c : Dev nD) : V1 m ρ c main_v0 = KValue.xin (m ((c : Thread nD τ).loc main_arg0)) := by
  show StableHlo.after hostOps0 (W0 m ρ c) (Proc.devRef .tc main_v0) = _
  after_results; rfl

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## After the covariance kernel: its input as entered, its outputs what the blocks left -/

theorem W2_v0 (c : Dev nD) : W2 m ρ c (Proc.devRef .tc main_v0) = V1 m ρ c main_v0 :=
  (W2_arr m ρ c 0).trans (((dat0 (V1 m ρ) c).arrAt_in 0 rfl cfg0.N).trans (A_eq0 (V1 m ρ) c 0))

theorem W2_v1_0 (c : Dev nD) : W2 m ρ c (Proc.devRef .tc main_v1_0) = (dat0 (V1 m ρ) c).arrAt 1 cfg0.N := W2_arr m ρ c 1

theorem W2_v1_1 (c : Dev nD) : W2 m ρ c (Proc.devRef .tc main_v1_1) = (dat0 (V1 m ρ) c).arrAt 2 cfg0.N := W2_arr m ρ c 2

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

/-! ## The second host stretch: the whitening matrices and the two columns -/

theorem V3_v0 (c : Dev nD) : V3 m ρ c main_v0 = W2 m ρ c (Proc.devRef .tc main_v0) := by
  show StableHlo.after hostOps1 (W2 m ρ c) (Proc.devRef .tc main_v0) = _
  after_results_simp

theorem V3_v51 (c : Dev nD) : V3 m ρ c main_v51
    = KValue.wmv (W2 m ρ c (Proc.devRef .tc main_v1_0)) (W2 m ρ c (Proc.devRef .tc main_v1_1)) := by
  show StableHlo.after hostOps1 (W2 m ρ c) (Proc.devRef .tc main_v51) = _
  after_results_simp
  rfl

theorem V3_v52 (c : Dev nD) : V3 m ρ c main_v52 = KValue.col (W2 m ρ c (Proc.devRef .tc main_arg1)) := by
  show StableHlo.after hostOps1 (W2 m ρ c) (Proc.devRef .tc main_v52) = _
  after_results_simp
  rfl

theorem V3_v53 (c : Dev nD) : V3 m ρ c main_v53 = KValue.col (W2 m ρ c (Proc.devRef .tc main_arg2)) := by
  show StableHlo.after hostOps1 (W2 m ρ c) (Proc.devRef .tc main_v53) = _
  after_results_simp
  rfl

/-! ## After the whitening kernel, and the last reshape -/

theorem W4_v54 (c : Dev nD) : W4 m ρ c (Proc.devRef .tc main_v54) = (dat1 (V3 m ρ) c).arrAt 4 cfg1.N := W4_arr m ρ c 4

theorem W5_v55 (c : Dev nD) : W5 m ρ c (Proc.devRef .tc main_v55) = KValue.out4 (W4 m ρ c (Proc.devRef .tc main_v54)) := by
  show StableHlo.after hostOps2 (W4 m ρ c) (Proc.devRef .tc main_v55) = _
  after_results; rfl

end Cert.KernelIdeal.KHost

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.PayCov.lean ====
/-
  The covariance kernel's two stored blocks, read entry by entry on the extended reals.

  The block is one sample `y` of 64 channels by 16384 positions. Each row's sum over the positions, divided by 16384, is
  its mean; the rows less their means are the centred rows; their product with themselves over the positions, at (c, d),
  is the sum over the positions of row c times row d, and times 2⁻¹⁴ that is the Gram matrix divided by 16384. The
  identity term is the diagonal bit (row number equals column number) read as 0 or 1, times ε. So the first payload is
  `Whiten.cov y`. Masked to the diagonal and summed over the columns and then over the rows it is the trace, whose
  reciprocal is `Whiten.rtr y`; the stored blocks are `Whiten.covn y` and `Whiten.rtr y`.
-/
import proofs.«102350_j29016799052491_1_alg».proof.Proof.Gen.KernelIdeal.Skeleton
import proofs.«102350_j29016799052491_1_alg».proof.Proof.Spec
import proofs.«102350_j29016799052491_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayCov

open Idealize.ShloMosaic Idealize.ShloMosaic.ValueIdx Idealize.ShloMosaic.Keepdims Cert.KernelIdeal Cert.KernelIdeal.Gen

/-- The block read as one sample: channels by positions. -/
abbrev samp (xb : Vec Ideal S1x64x16384 .f32) : Whiten.Slice := fun c s => xb (ix3 (0 : Fin 1) c s)

/-- The block without its leading unit axis. -/
def rows (xb : Vec Ideal S1x64x16384 .f32) : FVec Ideal S64x16384 .f32 :=
  shapeCast S64x16384 xb shapeCasts_S1x64x16384_S64x16384

theorem rows_apply (xb : Vec Ideal S1x64x16384 .f32) (c : Fin 64) (s : Fin 16384) :
    rows xb (ix2 c s) = samp xb c s :=
  shapeCast_1ab_ab_apply xb shapeCasts_S1x64x16384_S64x16384 c s

/-- The centred rows, as the kernel forms them. -/
def cen (xb : Vec Ideal S1x64x16384 .f32) : FVec Ideal S64x16384 .bf16 :=
  truncf .bf16
    (subf (rows xb)
      (broadcastTo S64x16384
        (divf
          (shapeCast S64x1 (multiReduction (F := Ideal) .add [1] S64 (rows xb) 0x00000000#32 reduces_S64x16384_S64 (.inl rfl) rfl)
            shapeCasts_S64_S64x1)
          (broadcast S64x1 (Scalar.ofBits (F := Ideal) .f32 0x46800000#32)))
        broadcasts_S64x1_S64x16384))
    bitsLt_bf16_f32

theorem cen_apply (xb : Vec Ideal S1x64x16384 .f32) (c : Fin 64) (s : Fin 16384) :
    cen xb (ix2 c s) = Whiten.xc (samp xb) c s := by
  unfold cen
  rw [truncf_apply, subf_apply, rows_apply]
  rw [broadcastTo_a1_ab_apply, divf_apply, shapeCast_a_a1_apply, broadcast_apply]
  show samp xb c s - Ideal.div _ Whiten.n16384 = samp xb c s - Ideal.div (∑ k : Fin 16384, samp xb c k) Whiten.n16384
  refine congrArg (fun z => samp xb c s - Ideal.div z Whiten.n16384) ?_
  refine (laneSum_apply (rows xb) _ reduces_S64x16384_S64 _ _ c).trans ?_
  exact Finset.sum_congr rfl fun k _ => rows_apply xb c k

/-! ## The product of the centred rows with themselves -/

theorem lhs_gram_0 (i : S64x64.Idx) (q : dot_S64x16384_S64x16384_S64x64_1_1_0_0_n_n.contr.Idx) :
    (dot_S64x16384_S64x16384_S64x64_1_1_0_0_n_n.lhsIdx i q 0).val = (i 0).val := by
  unfold DotDims.lhsIdx
  rw [dif_neg (show ¬(0 : Fin S64x16384.rank) ∈ dot_S64x16384_S64x16384_S64x64_1_1_0_0_n_n.lhsBatch by decide),
    dif_pos (show (0 : Fin S64x16384.rank) ∈ dot_S64x16384_S64x16384_S64x64_1_1_0_0_n_n.lhsNonContracting by decide)]
  rfl

theorem lhs_gram_1 (i : S64x64.Idx) (q : dot_S64x16384_S64x16384_S64x64_1_1_0_0_n_n.contr.Idx) :
    (dot_S64x16384_S64x16384_S64x64_1_1_0_0_n_n.lhsIdx i q 1).val = (q ⟨0, by decide⟩).val :=
  dot_S64x16384_S64x16384_S64x64_1_1_0_0_n_n.lhsIdx_val_of_single rfl i q

theorem rhs_gram_0 (i : S64x64.Idx) (q : dot_S64x16384_S64x16384_S64x64_1_1_0_0_n_n.contr.Idx) :
    (dot_S64x16384_S64x16384_S64x64_1_1_0_0_n_n.rhsIdx i q 0).val = (i 1).val := by
  unfold DotDims.rhsIdx
  rw [dif_neg (show ¬(0 : Fin S64x16384.rank) ∈ dot_S64x16384_S64x16384_S64x64_1_1_0_0_n_n.rhsBatch by decide),
    dif_pos (show (0 : Fin S64x16384.rank) ∈ dot_S64x16384_S64x16384_S64x64_1_1_0_0_n_n.rhsNonContracting by decide)]
  rfl

theorem rhs_gram_1 (i : S64x64.Idx) (q : dot_S64x16384_S64x16384_S64x64_1_1_0_0_n_n.contr.Idx) :
    (dot_S64x16384_S64x16384_S64x64_1_1_0_0_n_n.rhsIdx i q 1).val = (q ⟨0, by decide⟩).val :=
  dot_S64x16384_S64x16384_S64x64_1_1_0_0_n_n.rhsIdx_val_of_single rfl i q

/-- The product of two [64, 16384] arrays contracting their second axes, into zero, reads at (c, d) the sum over the
    positions of row c of the first times row d of the second. -/
theorem gram_apply (A B : FVec Ideal S64x16384 .bf16) (c d : Fin 64) :
    matmul dot_S64x16384_S64x16384_S64x64_1_1_0_0_n_n none A B (constant (F := Ideal) S64x64 .f32 0x00000000#32) (ix2 c d)
      = ∑ k : Fin 16384, A (ix2 c k) * B (ix2 d k) := by
  simp only [matmul]
  rw [Ideal.matmul_constant_zero_apply, ← Equiv.sum_comp (contrEquiv1 dot_S64x16384_S64x16384_S64x64_1_1_0_0_n_n 16384 rfl rfl).symm]
  refine Finset.sum_congr rfl fun k _ => ?_
  have hk := contrEquiv1_symm_val dot_S64x16384_S64x16384_S64x64_1_1_0_0_n_n 16384 rfl rfl k
  have el : dot_S64x16384_S64x16384_S64x64_1_1_0_0_n_n.lhsIdx (ix2 c d) ((contrEquiv1 dot_S64x16384_S64x16384_S64x64_1_1_0_0_n_n 16384 rfl rfl).symm k) = ix2 c k :=
    funext fun a => Fin.ext (by
      match a with
      | ⟨0, _⟩ => exact lhs_gram_0 _ _
      | ⟨1, _⟩ => exact (lhs_gram_1 _ _).trans hk)
  have er : dot_S64x16384_S64x16384_S64x64_1_1_0_0_n_n.rhsIdx (ix2 c d) ((contrEquiv1 dot_S64x16384_S64x16384_S64x64_1_1_0_0_n_n 16384 rfl rfl).symm k) = ix2 d k :=
    funext fun a => Fin.ext (by
      match a with
      | ⟨0, _⟩ => exact rhs_gram_0 _ _
      | ⟨1, _⟩ => exact (rhs_gram_1 _ _).trans hk)
  rw [el, er]

/-! ## The identity term -/

/-- The diagonal test of the kernel: row number equals column number. -/
def diag : IVec S64x64 1 :=
  cmpi .eq (iota .tc S64x64 32 [0] iota_S64x64_d0_w32) (iota .tc S64x64 32 [1] iota_S64x64_d1_w32)

theorem diag_apply (c d : Fin 64) : diag (ix2 c d) = Whiten.diagBit c d := by
  unfold diag
  show IntOp.cmpi .eq (iota .tc S64x64 32 [0] iota_S64x64_d0_w32 (ix2 c d)) (iota .tc S64x64 32 [1] iota_S64x64_d1_w32 (ix2 c d)) = _
  rw [iota_single_apply, iota_single_apply]
  rfl

/-- A one-bit word, widened to 32 bits and converted as a signed integer, is its value as a number. -/
theorem sitofp_bit (b : BitVec 1) :
    FloatOps.sitofp (F := Ideal) .f32 (b.setWidth 32) = ((b.toNat : ℝ) : EReal) := by
  rcases (by decide : ∀ b : BitVec 1, b = 0#1 ∨ b = 1#1) b with rfl | rfl
  · show ((((0#1 : BitVec 1).setWidth 32).toInt : ℝ) : EReal) = (((0#1 : BitVec 1).toNat : ℝ) : EReal)
    have h1 : ((0#1 : BitVec 1).setWidth 32).toInt = 0 := by decide
    have h2 : (0#1 : BitVec 1).toNat = 0 := by decide
    rw [h1, h2]; simp
  · show ((((1#1 : BitVec 1).setWidth 32).toInt : ℝ) : EReal) = (((1#1 : BitVec 1).toNat : ℝ) : EReal)
    have h1 : ((1#1 : BitVec 1).setWidth 32).toInt = 1 := by decide
    have h2 : (1#1 : BitVec 1).toNat = 1 := by decide
    rw [h1, h2]; simp

theorem eye_apply (c d : Fin 64) :
    (sitofp (F := Ideal) .f32 (extui 32 diag natLt_1_32) : FVec Ideal S64x64 .f32) (ix2 c d) = Whiten.eye c d := by
  rw [sitofp_apply, extui_apply, diag_apply]
  exact sitofp_bit _

/-! ## The covariance block -/

/-- The covariance payload, written over the centred rows and the diagonal test. -/
theorem pay1_eq (xb : Vec Ideal S1x64x16384 .f32) :
    k0_pay1 (F := Ideal) xb =
      addf
        (mulf (matmul dot_S64x16384_S64x16384_S64x64_1_1_0_0_n_n none (cen xb) (cen xb) (constant (F := Ideal) S64x64 .f32 0x00000000#32))
          (broadcast S64x64 (Scalar.ofBits (F := Ideal) .f32 0x38800000#32)))
        (mulf (broadcast S64x64 (Scalar.ofBits (F := Ideal) .f32 0x3727C5AC#32))
          (sitofp .f32 (extui 32 diag natLt_1_32))) := rfl

theorem pay1_apply (xb : Vec Ideal S1x64x16384 .f32) (c d : Fin 64) :
    k0_pay1 (F := Ideal) xb (ix2 c d) = Whiten.cov (samp xb) c d := by
  rw [pay1_eq, addf_apply, mulf_apply, mulf_apply, gram_apply, broadcast_apply, broadcast_apply, eye_apply]
  show (∑ k : Fin 16384, cen xb (ix2 c k) * cen xb (ix2 d k)) * Ideal.ofBits .f32 0x38800000#32
      + Whiten.eps * Whiten.eye c d = _
  rw [Whiten.mul_inv16384]
  unfold Whiten.cov Whiten.gram
  simp only [cen_apply]

/-! ## The reciprocal of the trace -/

/-- At the extended reals a sum of an `[a, 1]` column over its first axis, from the zero accumulator, is the sum of
    the column. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k u) := by
  refine (Ideal.multiReduction_add_single src acc h hφ hacc (ix1 u)).trans ?_
  refine Finset.sum_congr rfl fun k _ => ?_
  refine congrArg src (funext fun ax => Fin.ext ?_)
  rw [Shape.Reduces.lift_val]
  match ax with
  | ⟨0, _⟩ => rfl
  | ⟨1, _⟩ => rfl

/-- The covariance masked to its diagonal. -/
def masked (xb : Vec Ideal S1x64x16384 .f32) : FVec Ideal S64x64 .f32 :=
  select diag (k0_pay1 (F := Ideal) xb) (broadcast S64x64 (Scalar.ofBits (F := Ideal) .f32 0x00000000#32))

theorem masked_apply (xb : Vec Ideal S1x64x16384 .f32) (c d : Fin 64) :
    masked xb (ix2 c d) = Scalar.select (Whiten.diagBit c d) (Whiten.cov (samp xb) c d) (0 : EReal) := by
  unfold masked
  rw [select_apply, diag_apply, pay1_apply, broadcast_apply]
  show Scalar.select _ _ (Ideal.ofBits .f32 0x00000000#32) = _
  rw [Ideal.ofBits_zero_f32]

/-- The trace-reciprocal payload, written over the masked covariance. -/
theorem pay2_eq (xb : Vec Ideal S1x64x16384 .f32) :
    k0_pay2 (F := Ideal) xb =
      divf (broadcast S1x1 (Scalar.ofBits (F := Ideal) .f32 0x3F800000#32))
        (shapeCast S1x1
          (multiReduction (F := Ideal) .add [0] S1
            (shapeCast S64x1
              (multiReduction (F := Ideal) .add [1] S64 (masked xb) 0x00000000#32 reduces_S64x64_S64 (.inl rfl) rfl)
              shapeCasts_S64_S64x1)
            0x00000000#32 reduces_S64x1_S1 (.inl rfl) rfl)
          shapeCasts_S1_S1x1) := rfl

theorem pay2_apply (xb : Vec Ideal S1x64x16384 .f32) :
    k0_pay2 (F := Ideal) xb (ix2 (0 : Fin 1) (0 : Fin 1)) = Whiten.rtr (samp xb) := by
  rw [pay2_eq, divf_apply, broadcast_apply, shapeCast_a_a1_apply]
  show Ideal.div Whiten.one _ = Ideal.div Whiten.one (Whiten.tr (samp xb))
  refine congrArg (Ideal.div Whiten.one) ?_
  refine (colSum_apply _ _ reduces_S64x1_S1 _ _ (0 : Fin 1)).trans ?_
  unfold Whiten.tr
  refine Finset.sum_congr rfl fun c _ => ?_
  rw [shapeCast_a_a1_apply]
  refine (laneSum_apply (masked xb) _ reduces_S64x64_S64 _ _ c).trans ?_
  exact Finset.sum_congr rfl fun d _ => masked_apply xb c d

/-! ## The two stored blocks -/

theorem pay3_apply (xb : Vec Ideal S1x64x16384 .f32) (c d : Fin 64) :
    k0_pay3 (F := Ideal) xb (ix3 (0 : Fin 1) c d) = Whiten.covn (fun c s => xb (ix3 (0 : Fin 1) c s)) c d := by
  unfold k0_pay3
  rw [shapeCast_ab_1ab_apply, mulf_apply, pay1_apply]
  rw [broadcastTo_apply (k0_pay2 (F := Ideal) xb) broadcasts_S1x1_S64x64 (ix2 c d) (ix2 (0 : Fin 1) (0 : Fin 1))
    (fun ax => by match ax with | ⟨0, _⟩ => rfl | ⟨1, _⟩ => rfl), pay2_apply]
  rfl

theorem pay4_apply (xb : Vec Ideal S1x64x16384 .f32) :
    k0_pay4 (F := Ideal) xb (ix3 (0 : Fin 1) (0 : Fin 1) (0 : Fin 1)) = Whiten.rtr (fun c s => xb (ix3 (0 : Fin 1) c s)) := by
  unfold k0_pay4
  rw [shapeCast_ab_1ab_apply, pay2_apply]

end Cert.KernelIdeal.PayCov

end
-- ==== Proof.PayApply.lean ====
/-
  The whitening payload read at one element. The kernel's second call takes one sample block [1, 64, 16384], a
  whitening matrix block [1, 64, 64] and two [64, 1] columns (scale and shift). It centres the sample's rows by their
  means (row sum divided by 16384), multiplies the matrix by the centred sample, scales each row by the scale column
  and adds the shift column. Over the extended reals every step is exact and the narrowing format changes are the
  identity, so at channel c and position s the result is
      (∑ d, wm c d * (y d s - mean y d)) * w c + b c,
  which is `Whiten.out`. The proof reads each layout operation at an index (the unit-axis views, the column view of the
  row sums, the column broadcasts), reads the product as a sum over its contraction index, and re-indexes that sum by
  the 64 channels.
-/
import proofs.«102350_j29016799052491_1_alg».proof.Proof.Gen.KernelIdeal.Skeleton
import proofs.«102350_j29016799052491_1_alg».proof.Proof.Spec
import proofs.«102350_j29016799052491_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayApply

open Idealize.ShloMosaic Idealize.ShloMosaic.ValueIdx Cert.KernelIdeal Cert.KernelIdeal.Gen

/-- The dimension numbers of the whitening product: [64,64] times [64,16384], contracting the matrix's columns with the
    sample's rows. -/
abbrev DW := dot_S64x64_S64x16384_S64x16384_1_0_0_1_n_n

/-- The matrix operand's row is the output's row … -/
theorem DW_lhs_0 (j : S64x16384.Idx) (k : DW.contr.Idx) : (DW.lhsIdx j k 0 : ℕ) = j 0 := by
  unfold DotDims.lhsIdx
  rw [dif_neg (show ¬(0 : Fin S64x64.rank) ∈ DW.lhsBatch by decide), dif_pos (show (0 : Fin S64x64.rank) ∈ DW.lhsNonContracting by decide)]
  rfl
/-- … its column the contraction's coordinate; -/
theorem DW_lhs_1 (j : S64x16384.Idx) (k : DW.contr.Idx) : (DW.lhsIdx j k 1 : ℕ) = k ⟨0, by decide⟩ :=
  DW.lhsIdx_val_of_single (cl := 1) rfl j k
/-- the sample operand's row is the contraction's coordinate … -/
theorem DW_rhs_0 (j : S64x16384.Idx) (k : DW.contr.Idx) : (DW.rhsIdx j k 0 : ℕ) = k ⟨0, by decide⟩ :=
  DW.rhsIdx_val_of_single (cr := 0) rfl j k
/-- … and its column the output's column. -/
theorem DW_rhs_1 (j : S64x16384.Idx) (k : DW.contr.Idx) : (DW.rhsIdx j k 1 : ℕ) = j 1 := by
  unfold DotDims.rhsIdx
  rw [dif_neg (show ¬(1 : Fin S64x16384.rank) ∈ DW.rhsBatch by decide), dif_pos (show (1 : Fin S64x16384.rank) ∈ DW.rhsNonContracting by decide)]
  rfl

/-- The contraction's indices are the 64 channels. -/
def contrDW : DW.contr.Idx ≃ Fin 64 := contrEquiv1 DW 64 rfl rfl

theorem DW_lhsIdx_eq (c : Fin 64) (s : Fin 16384) (d : Fin 64) : DW.lhsIdx (ix2 c s) (contrDW.symm d) = ix2 c d := by
  funext a
  refine Fin.ext ?_
  match a with
  | ⟨0, _⟩ => exact DW_lhs_0 _ _
  | ⟨1, _⟩ => exact (DW_lhs_1 _ _).trans (contrEquiv1_symm_val DW 64 rfl rfl d)

theorem DW_rhsIdx_eq (c : Fin 64) (s : Fin 16384) (d : Fin 64) : DW.rhsIdx (ix2 c s) (contrDW.symm d) = ix2 d s := by
  funext a
  refine Fin.ext ?_
  match a with
  | ⟨0, _⟩ => exact (DW_rhs_0 _ _).trans (contrEquiv1_symm_val DW 64 rfl rfl d)
  | ⟨1, _⟩ => exact DW_rhs_1 _ _

/-- The centred rows of the sample block, as the payload forms them: the block viewed [64,16384], less its row sums
    divided by 16384 and broadcast along the rows. -/
def centred (xb : Vec Ideal S1x64x16384 .f32) : FVec Ideal S64x16384 .f32 :=
  subf (shapeCast S64x16384 xb shapeCasts_S1x64x16384_S64x16384)
    (broadcastTo S64x16384
      (divf
        (shapeCast S64x1
          (multiReduction (F := Ideal) .add [1] S64 (shapeCast S64x16384 xb shapeCasts_S1x64x16384_S64x16384) 0x00000000#32
            reduces_S64x16384_S64 (.inl rfl) rfl)
          shapeCasts_S64_S64x1)
        (broadcast S64x1 (Scalar.ofBits (F := Ideal) .f32 0x46800000#32)))
      broadcasts_S64x1_S64x16384)

/-- At (d, s) they are the sample's entry less its row's mean. -/
theorem centred_apply (xb : Vec Ideal S1x64x16384 .f32) (d : Fin 64) (s : Fin 16384) :
    centred xb (ix2 d s) = Whiten.xc (fun c s => xb (ix3 (0 : Fin 1) c s)) d s := by
  unfold centred Whiten.xc Whiten.mean
  refine (subf_apply _ _ _).trans (congrArg₂ (· - ·) (shapeCast_1ab_ab_apply xb _ d s) ?_)
  refine (Keepdims.broadcastTo_a1_ab_apply _ _ d s).trans ?_
  refine (divf_apply _ _ _).trans (congrArg₂ Ideal.div ?_ rfl)
  refine (Keepdims.shapeCast_a_a1_apply _ _ d (0 : Fin 1)).trans ?_
  refine (Keepdims.laneSum_apply _ _ _ _ _ d).trans ?_
  exact Finset.sum_congr rfl fun k _ => shapeCast_1ab_ab_apply xb _ d k

/-- The payload, with the centred rows named. -/
theorem pay1_eq (xb : Vec Ideal S1x64x16384 .f32) (wb : Vec Ideal S1x64x64 .f32) (w2 b2 : Vec Ideal S64x1 .f32) :
    k1_pay1 (F := Ideal) xb wb w2 b2
      = shapeCast S1x64x16384
          (addf
            (mulf
              (matmul DW none (truncf .bf16 (shapeCast S64x64 wb shapeCasts_S1x64x64_S64x64) bitsLt_bf16_f32)
                (truncf .bf16 (centred xb) bitsLt_bf16_f32) (constant (F := Ideal) S64x16384 .f32 0x00000000#32))
              (broadcastTo S64x16384 (shapeCast S64x1 w2 shapeCasts_S64x1_S64x1) broadcasts_S64x1_S64x16384))
            (broadcastTo S64x16384 (shapeCast S64x1 b2 shapeCasts_S64x1_S64x1) broadcasts_S64x1_S64x16384))
          shapeCasts_S64x16384_S1x64x16384 := rfl

theorem pay1_apply (xb : Vec Ideal S1x64x16384 .f32) (wb : Vec Ideal S1x64x64 .f32) (w2 b2 : Vec Ideal S64x1 .f32)
    (c : Fin 64) (s : Fin 16384) :
    k1_pay1 (F := Ideal) xb wb w2 b2 (ix3 (0 : Fin 1) c s)
      = Whiten.out (fun c s => xb (ix3 (0 : Fin 1) c s)) (fun c d => wb (ix3 (0 : Fin 1) c d))
          (fun c => w2 (ix2 c (0 : Fin 1))) (fun c => b2 (ix2 c (0 : Fin 1))) c s := by
  rw [pay1_eq]
  refine (shapeCast_ab_1ab_apply _ _ (0 : Fin 1) c s).trans ?_
  refine (addf_apply _ _ _).trans ?_
  unfold Whiten.out
  refine congrArg₂ (· + ·) ((mulf_apply _ _ _).trans (congrArg₂ (· * ·) ?_ ?_)) ?_
  · refine (Ideal.matmul_constant_zero_apply DW none _ _ (ix2 c s)).trans ?_
    refine (Equiv.sum_comp contrDW.symm _).symm.trans ?_
    refine Finset.sum_congr rfl fun d _ => ?_
    rw [DW_lhsIdx_eq, DW_rhsIdx_eq]
    refine congrArg₂ (· * ·) ?_ ?_
    · exact (truncf_apply (ψ := .bf16) (shapeCast S64x64 wb shapeCasts_S1x64x64_S64x64) bitsLt_bf16_f32 (ix2 c d)).trans
        (shapeCast_1ab_ab_apply wb _ c d)
    · exact (truncf_apply (ψ := .bf16) (centred xb) bitsLt_bf16_f32 (ix2 d s)).trans (centred_apply xb d s)
  · refine (Keepdims.broadcastTo_a1_ab_apply _ _ c s).trans ?_
    rw [shapeCast_self]
  · refine (Keepdims.broadcastTo_a1_ab_apply _ _ c s).trans ?_
    rw [shapeCast_self]

end Cert.KernelIdeal.PayApply

end
-- ==== Proof.Blocks.lean ====
/-
  From each output window's blocks to the whole array, for the two kernel regions, over the extended reals.

  Region 0 runs over 32 points, one per sample n. At point n its input block is sample n of the batch, and it writes
  block (n, 0, 0) of the covariance array, which is the normalised covariance of sample n, and block (n, 0, 0) of the
  trace array, which is the reciprocal trace of sample n. Region 1 runs over 32 points as well: at point n it reads
  sample n, whitening matrix n, and the whole scale and shift columns, and writes block (n, 0, 0) of the output, the
  whitened, scaled and shifted sample n. In each region the blocks written tile the array (the block of sample n is
  written at point n), so the array after the region is the array-level function of the region's inputs.
-/
import proofs.«102350_j29016799052491_1_alg».proof.Proof.Gen.KernelIdeal.Frame
import proofs.«102350_j29016799052491_1_alg».proof.Proof.Spec
import proofs.«102350_j29016799052491_1_alg».proof.Proof.PayCov
import proofs.«102350_j29016799052491_1_alg».proof.Proof.PayApply
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## Offsets -/

/-- The offsets (0, 0, 0) are the zero offsets. -/
theorem zeros3 : (![0, 0, 0] : Fin 3 → Nat) = fun _ => 0 := funext fun a => by fin_cases a <;> rfl
/-- The offsets (0, 0) are the zero offsets. -/
theorem zeros2 : (![0, 0] : Fin 2 → Nat) = fun _ => 0 := funext fun a => by fin_cases a <;> rfl

/-! ## Region 0: the normalised covariances and the trace reciprocals -/

/-- At point t of region 0 every window's block index is (t, 0, 0). -/
theorem blockIdx0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point t is sample t of the batch: its entry (0, ch, s) is the batch's entry (t, ch, s). -/
theorem sample0 (c : Dev nD) (t : Fin cfg0.N) (n : Fin 32) (hn : n.val = t.val) (ch : Fin 64) (s : Fin 16384) :
    iblk0 (F := Ideal) V c 0 t (ix3 (0 : Fin 1) ch s) = V c main_v0 (ix3 n ch s) := by
  obtain ⟨e0, e1, e2, -⟩ := blockIdx0 t
  unfold iblk0
  rw [View.read_apply]
  show V c main_v0 _ = V c main_v0 _
  congr 1
  funext a
  apply Fin.ext
  match a with
  | ⟨0, _⟩ => show win0_0.index t (0 : Fin 3) * 1 + 1 * 0 = n.val; omega
  | ⟨1, _⟩ => show win0_0.index t (1 : Fin 3) * 64 + 1 * ch.val = ch.val; omega
  | ⟨2, _⟩ => show win0_0.index t (2 : Fin 3) * 16384 + 1 * s.val = s.val; omega

/-- The covariance payload at any index of its [1, 64, 64] block is the normalised covariance of the block's sample
    at the index's row and column. -/
theorem covn_at (x0 : Vec Ideal S1x64x16384 .f32) (y : S1x64x64.Idx) :
    k0_pay3 (F := Ideal) x0 y = Whiten.covn (fun c s => x0 (ix3 (0 : Fin 1) c s)) (y 1) (y 2) := by
  obtain ⟨a, c, d, rfl⟩ : ∃ (a : Fin 1) (c : Fin 64) (d : Fin 64), y = ix3 a c d := ⟨y 0, y 1, y 2, eq_ix3 y⟩
  obtain rfl : a = 0 := Subsingleton.elim _ _
  exact PayCov.pay3_apply x0 c d

/-- The normalised covariance of equal samples at equal rows and columns. -/
theorem covn_congr {y y' : Whiten.Slice} {c c' d d' : Fin 64} (hy : y = y') (hc : c = c') (hd : d = d') :
    Whiten.covn y c d = Whiten.covn y' c' d' := by subst hy hc hd; rfl

/-- What point t writes back to the covariance array is block t of the batch's normalised covariances. -/
theorem covn_written (c : Dev nD) (t : Fin cfg0.N) :
    (dat0 (F := Ideal) V c).flushed 1 t = ((cfg0.win 1).blk t).view.read (Elt Ideal) (Whiten.covnArr (V c main_v0)) := by
  show (cfg0.win 1).cut (grid0.coords t) ((dat0 V c).after 1 t) = _
  rw [after0_1]
  unfold out0_1
  rw [View.canon_unit_zero zeros3]
  simp only [View.ld_unit_zero (S := S1x64x16384) zeros3]
  obtain ⟨-, -, -, e0, e1, e2, -⟩ := blockIdx0 t
  funext j
  show k0_pay3 (F := Ideal) (iblk0 V c 0 t) ((cfg0.win 1).xinj (grid0.coords t) j)
    = Whiten.covnArr (V c main_v0) (((cfg0.win 1).blk t).view.emb j)
  rw [covn_at]
  unfold Whiten.covnArr
  refine covn_congr ?_ ?_ ?_
  · funext ch s
    exact sample0 V c t _ (by show win0_1.index t (0 : Fin 3) * 1 + 1 * (j 0).val = t.val; have hj : (j 0).val < 1 := (j 0).isLt; omega) ch s
  · apply Fin.ext
    show (j 1).val = win0_1.index t (1 : Fin 3) * 64 + 1 * (j 1).val
    omega
  · apply Fin.ext
    show (j 2).val = win0_1.index t (2 : Fin 3) * 64 + 1 * (j 2).val
    omega

/-- An index of the covariance array is in point t's block iff each coordinate is in the block's range on its axis. -/
theorem mem_covnBlock (t : Fin cfg0.N) (i : S32x64x64.Idx) :
    i ∈ ((cfg0.win 1).blk t).view.set ↔ ∀ a : Fin 3, win0_1.index t a * S1x64x64.size a ≤ (i a).val ∧ (i a).val < win0_1.index t a * S1x64x64.size a + S1x64x64.size a := by
  show i ∈ ((View.whole main_v1_0).slice (win0_1.rect t)).set ↔ _
  rw [View.set_slice_whole, Rect.mem_set_unit]
  exact Iff.rfl

/-- Every index (n, c, d) of the covariance array is in the block written at point n. -/
theorem covn_covered (i : S32x64x64.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hi2 : (i 2).val < 64 := (i 2).isLt
  have hN : cfg0.N = 32 := N_0
  let t : Fin cfg0.N := ⟨(i 0).val, by omega⟩
  obtain ⟨-, -, -, e0, e1, e2, -⟩ := blockIdx0 t
  have ht : t.val = (i 0).val := rfl
  refine ⟨t, flush0_1 t, ?_⟩
  rw [mem_covnBlock]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 64 ≤ (i 1).val ∧ (i 1).val < win0_1.index t (1 : Fin 3) * 64 + 64; omega
  | ⟨2, _⟩ => show win0_1.index t (2 : Fin 3) * 64 ≤ (i 2).val ∧ (i 2).val < win0_1.index t (2 : Fin 3) * 64 + 64; omega

theorem arr0_1 (c : Dev nD) : (dat0 (F := Ideal) V c).arrAt 1 cfg0.N = Whiten.covnArr (V c main_v0) := by
  exact (dat0 (F := Ideal) V c).arrAt_eq_of_cover 1 (Whiten.covnArr (V c main_v0)) (fun t _ => covn_written V c t) covn_covered

/-- The trace payload at the one index of its [1, 1, 1] block is the reciprocal trace of the block's sample. -/
theorem rtr_at (x0 : Vec Ideal S1x64x16384 .f32) (y : S1x1x1.Idx) :
    k0_pay4 (F := Ideal) x0 y = Whiten.rtr (fun c s => x0 (ix3 (0 : Fin 1) c s)) := by
  obtain ⟨a, b, d, rfl⟩ : ∃ (a : Fin 1) (b : Fin 1) (d : Fin 1), y = ix3 a b d := ⟨y 0, y 1, y 2, eq_ix3 y⟩
  obtain rfl : a = 0 := Subsingleton.elim _ _
  obtain rfl : b = 0 := Subsingleton.elim _ _
  obtain rfl : d = 0 := Subsingleton.elim _ _
  exact PayCov.pay4_apply x0

/-- What point t writes back to the trace array is block t of the batch's trace reciprocals. -/
theorem rtr_written (c : Dev nD) (t : Fin cfg0.N) :
    (dat0 (F := Ideal) V c).flushed 2 t = ((cfg0.win 2).blk t).view.read (Elt Ideal) (Whiten.rtrArr (V c main_v0)) := by
  show (cfg0.win 2).cut (grid0.coords t) ((dat0 V c).after 2 t) = _
  rw [after0_2]
  unfold out0_2
  rw [View.canon_unit_zero zeros3]
  simp only [View.ld_unit_zero (S := S1x64x16384) zeros3]
  obtain ⟨-, -, -, -, -, -, e0, e1, e2⟩ := blockIdx0 t
  funext j
  show k0_pay4 (F := Ideal) (iblk0 V c 0 t) ((cfg0.win 2).xinj (grid0.coords t) j)
    = Whiten.rtrArr (V c main_v0) (((cfg0.win 2).blk t).view.emb j)
  rw [rtr_at]
  unfold Whiten.rtrArr
  refine congrArg Whiten.rtr ?_
  funext ch s
  exact sample0 V c t _ (by show win0_2.index t (0 : Fin 3) * 1 + 1 * (j 0).val = t.val; have hj : (j 0).val < 1 := (j 0).isLt; omega) ch s

/-- An index of the trace array is in point t's block iff each coordinate is in the block's range on its axis. -/
theorem mem_rtrBlock (t : Fin cfg0.N) (i : S32x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1_1).slice (win0_2.rect t)).set ↔ _
  rw [View.set_slice_whole, Rect.mem_set_unit]
  exact Iff.rfl

/-- Every index (n, 0, 0) of the trace array is in the block written at point n. -/
theorem rtr_covered (i : S32x1x1.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 1 := (i 2).isLt
  have hN : cfg0.N = 32 := N_0
  let t : Fin cfg0.N := ⟨(i 0).val, by omega⟩
  obtain ⟨-, -, -, -, -, -, e0, e1, e2⟩ := blockIdx0 t
  have ht : t.val = (i 0).val := rfl
  refine ⟨t, flush0_2 t, ?_⟩
  rw [mem_rtrBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

theorem arr0_2 (c : Dev nD) : (dat0 (F := Ideal) V c).arrAt 2 cfg0.N = Whiten.rtrArr (V c main_v0) := by
  exact (dat0 (F := Ideal) V c).arrAt_eq_of_cover 2 (Whiten.rtrArr (V c main_v0)) (fun t _ => rtr_written V c t) rtr_covered

/-! ## Region 1: the whitened, scaled and shifted samples -/

/-- At point t of region 1 the sample, matrix and output blocks are at block index (t, 0, 0); the scale and shift
    columns are one block each, at (0, 0). -/
theorem blockIdx1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The sample block at point t is sample t of the batch. -/
theorem sample1 (c : Dev nD) (t : Fin cfg1.N) (n : Fin 32) (hn : n.val = t.val) (ch : Fin 64) (s : Fin 16384) :
    iblk1 (F := Ideal) V c 0 t (ix3 (0 : Fin 1) ch s) = V c main_v0 (ix3 n ch s) := by
  obtain ⟨e0, e1, e2, -⟩ := blockIdx1 t
  unfold iblk1
  rw [View.read_apply]
  show V c main_v0 _ = V c main_v0 _
  congr 1
  funext a
  apply Fin.ext
  match a with
  | ⟨0, _⟩ => show win1_0.index t (0 : Fin 3) * 1 + 1 * 0 = n.val; omega
  | ⟨1, _⟩ => show win1_0.index t (1 : Fin 3) * 64 + 1 * ch.val = ch.val; omega
  | ⟨2, _⟩ => show win1_0.index t (2 : Fin 3) * 16384 + 1 * s.val = s.val; omega

/-- The matrix block at point t is whitening matrix t of the batch of matrices. -/
theorem matrix1 (c : Dev nD) (t : Fin cfg1.N) (n : Fin 32) (hn : n.val = t.val) (ch d : Fin 64) :
    iblk1 (F := Ideal) V c 1 t (ix3 (0 : Fin 1) ch d) = V c main_v51 (ix3 n ch d) := by
  obtain ⟨-, -, -, e0, e1, e2, -⟩ := blockIdx1 t
  unfold iblk1
  rw [View.read_apply]
  show V c main_v51 _ = V c main_v51 _
  congr 1
  funext a
  apply Fin.ext
  match a with
  | ⟨0, _⟩ => show win1_1.index t (0 : Fin 3) * 1 + 1 * 0 = n.val; omega
  | ⟨1, _⟩ => show win1_1.index t (1 : Fin 3) * 64 + 1 * ch.val = ch.val; omega
  | ⟨2, _⟩ => show win1_1.index t (2 : Fin 3) * 64 + 1 * d.val = d.val; omega

/-- The scale block at every point is the whole scale column. -/
theorem scale1 (c : Dev nD) (t : Fin cfg1.N) (ch : Fin 64) :
    iblk1 (F := Ideal) V c 2 t (ix2 ch (0 : Fin 1)) = V c main_v52 (ix2 ch (0 : Fin 1)) := by
  obtain ⟨-, -, -, -, -, -, e0, e1, -⟩ := blockIdx1 t
  unfold iblk1
  rw [View.read_apply]
  show V c main_v52 _ = V c main_v52 _
  congr 1
  funext a
  apply Fin.ext
  match a with
  | ⟨0, _⟩ => show win1_2.index t (0 : Fin 2) * 64 + 1 * ch.val = ch.val; omega
  | ⟨1, _⟩ => show win1_2.index t (1 : Fin 2) * 1 + 1 * 0 = 0; omega

/-- The shift block at every point is the whole shift column. -/
theorem shift1 (c : Dev nD) (t : Fin cfg1.N) (ch : Fin 64) :
    iblk1 (F := Ideal) V c 3 t (ix2 ch (0 : Fin 1)) = V c main_v53 (ix2 ch (0 : Fin 1)) := by
  obtain ⟨-, -, -, -, -, -, -, -, e0, e1, -⟩ := blockIdx1 t
  unfold iblk1
  rw [View.read_apply]
  show V c main_v53 _ = V c main_v53 _
  congr 1
  funext a
  apply Fin.ext
  match a with
  | ⟨0, _⟩ => show win1_3.index t (0 : Fin 2) * 64 + 1 * ch.val = ch.val; omega
  | ⟨1, _⟩ => show win1_3.index t (1 : Fin 2) * 1 + 1 * 0 = 0; omega

/-- The whitening payload at any index of its [1, 64, 16384] block is the whitened, scaled and shifted sample at the
    index's channel and position. -/
theorem out_at (x0 : Vec Ideal S1x64x16384 .f32) (x1 : Vec Ideal S1x64x64 .f32) (x2 x3 : Vec Ideal S64x1 .f32) (y : S1x64x16384.Idx) :
    k1_pay1 (F := Ideal) x0 x1 x2 x3 y
      = Whiten.out (fun c s => x0 (ix3 (0 : Fin 1) c s)) (fun c d => x1 (ix3 (0 : Fin 1) c d))
          (fun c => x2 (ix2 c (0 : Fin 1))) (fun c => x3 (ix2 c (0 : Fin 1))) (y 1) (y 2) := by
  obtain ⟨a, c, s, rfl⟩ : ∃ (a : Fin 1) (c : Fin 64) (s : Fin 16384), y = ix3 a c s := ⟨y 0, y 1, y 2, eq_ix3 y⟩
  obtain rfl : a = 0 := Subsingleton.elim _ _
  exact PayApply.pay1_apply x0 x1 x2 x3 c s

/-- The output of equal samples, matrices, scales and shifts at equal channels and positions. -/
theorem out_congr {y y' : Whiten.Slice} {wm wm' : Whiten.Mat} {w w' b b' : Fin 64 → EReal} {c c' : Fin 64} {s s' : Fin 16384}
    (hy : y = y') (hm : wm = wm') (hw : w = w') (hb : b = b') (hc : c = c') (hs : s = s') :
    Whiten.out y wm w b c s = Whiten.out y' wm' w' b' c' s' := by subst hy hm hw hb hc hs; rfl

/-- What point t writes back to the output array is block t of the batch's outputs. -/
theorem out_written (c : Dev nD) (t : Fin cfg1.N) :
    (dat1 (F := Ideal) V c).flushed 4 t
      = ((cfg1.win 4).blk t).view.read (Elt Ideal) (Whiten.outArr (V c main_v0) (V c main_v51) (V c main_v52) (V c main_v53)) := by
  show (cfg1.win 4).cut (grid1.coords t) ((dat1 V c).after 4 t) = _
  rw [after1_4]
  unfold out1_4
  rw [View.canon_unit_zero zeros3]
  simp only [View.ld_unit_zero (S := S1x64x16384) zeros3, View.ld_unit_zero (S := S1x64x64) zeros3, View.ld_unit_zero (S := S64x1) zeros2]
  obtain ⟨-, -, -, -, -, -, -, -, -, -, e0, e1, e2⟩ := blockIdx1 t
  funext j
  show k1_pay1 (F := Ideal) (iblk1 V c 0 t) (iblk1 V c 1 t) (iblk1 V c 2 t) (iblk1 V c 3 t) ((cfg1.win 4).xinj (grid1.coords t) j)
    = Whiten.outArr (V c main_v0) (V c main_v51) (V c main_v52) (V c main_v53) (((cfg1.win 4).blk t).view.emb j)
  rw [out_at]
  unfold Whiten.outArr
  have hn : ((((cfg1.win 4).blk t).view.emb j) 0).val = t.val := by
    show win1_4.index t (0 : Fin 3) * 1 + 1 * (j 0).val = t.val
    have hj : (j 0).val < 1 := (j 0).isLt
    omega
  refine out_congr ?_ ?_ ?_ ?_ ?_ ?_
  · funext ch s
    exact sample1 V c t _ hn ch s
  · funext ch d
    exact matrix1 V c t _ hn ch d
  · funext ch
    exact scale1 V c t ch
  · funext ch
    exact shift1 V c t ch
  · apply Fin.ext
    show (j 1).val = win1_4.index t (1 : Fin 3) * 64 + 1 * (j 1).val
    omega
  · apply Fin.ext
    show (j 2).val = win1_4.index t (2 : Fin 3) * 16384 + 1 * (j 2).val
    omega

/-- An index of the output array is in point t's block iff each coordinate is in the block's range on its axis. -/
theorem mem_outBlock (t : Fin cfg1.N) (i : S32x64x16384.Idx) :
    i ∈ ((cfg1.win 4).blk t).view.set ↔ ∀ a : Fin 3, win1_4.index t a * S1x64x16384.size a ≤ (i a).val ∧ (i a).val < win1_4.index t a * S1x64x16384.size a + S1x64x16384.size a := by
  show i ∈ ((View.whole main_v54).slice (win1_4.rect t)).set ↔ _
  rw [View.set_slice_whole, Rect.mem_set_unit]
  exact Iff.rfl

/-- Every index (n, c, s) of the output array is in the block written at point n. -/
theorem out_covered (i : S32x64x16384.Idx) :
    ∃ t : Fin cfg1.N, (cfg1.win 4).flush t = true ∧ i ∈ ((cfg1.win 4).blk t).view.set := by
  have hi0 : (i 0).val < 32 := (i 0).isLt
  have hi1 : (i 1).val < 64 := (i 1).isLt
  have hi2 : (i 2).val < 16384 := (i 2).isLt
  have hN : cfg1.N = 32 := N_1
  let t : Fin cfg1.N := ⟨(i 0).val, by omega⟩
  obtain ⟨-, -, -, -, -, -, -, -, -, -, e0, e1, e2⟩ := blockIdx1 t
  have ht : t.val = (i 0).val := rfl
  refine ⟨t, flush1_4 t, ?_⟩
  rw [mem_outBlock]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 64 ≤ (i 1).val ∧ (i 1).val < win1_4.index t (1 : Fin 3) * 64 + 64; omega
  | ⟨2, _⟩ => show win1_4.index t (2 : Fin 3) * 16384 ≤ (i 2).val ∧ (i 2).val < win1_4.index t (2 : Fin 3) * 16384 + 16384; omega

theorem arr1_4 (c : Dev nD) :
    (dat1 (F := Ideal) V c).arrAt 4 cfg1.N = Whiten.outArr (V c main_v0) (V c main_v51) (V c main_v52) (V c main_v53) := by
  exact (dat1 (F := Ideal) V c).arrAt_eq_of_cover 4 (Whiten.outArr (V c main_v0) (V c main_v51) (V c main_v52) (V c main_v53))
    (fun t _ => out_written V c t) out_covered

end Cert.KernelIdeal.Blocks

end
-- ==== Proof.KResult.lean ====
/-
  The kernel program's result array after the run, at the extended reals, as the specification's function of the three
  arguments: the boundaries' contents walked back from the return to the launch, the two kernels' output arrays read
  through the specification.
-/
import proofs.«102350_j29016799052491_1_alg».proof.Proof.KHost
import proofs.«102350_j29016799052491_1_alg».proof.Proof.Blocks

set_option maxRecDepth 16384

noncomputable section

namespace Cert.KernelIdeal.KResult

open Cert.KernelIdeal Cert.KernelIdeal.Gen Cert.KernelIdeal.KHost
open Idealize.ShloMosaic Idealize.ShloMosaic.TcCoe Idealize.SL.Sem

variable (m : (ℓ : Loc nD τ sig) → Buf (Elt Ideal) ℓ) (ρ : Dev nD → PrngReg)

/-- The result array after the run is the specification's output, reshaped, of the reshaped batch, the whitening
    matrices of the specification's normalised covariances and trace reciprocals, and the two columns. -/
theorem W5_result (c : Dev nD) : W5 m ρ c (Proc.devRef .tc main_v55)
    = KValue.result (m ((c : Thread nD τ).loc main_arg0)) (m ((c : Thread nD τ).loc main_arg1)) (m ((c : Thread nD τ).loc main_arg2)) := by
  rw [W5_v55, W4_v54, Blocks.arr1_4 (V3 m ρ) c, V3_v0, W2_v0, V1_v0, V3_v51, W2_v1_0, W2_v1_1,
    Blocks.arr0_1 (V1 m ρ) c, Blocks.arr0_2 (V1 m ρ) c, V1_v0, V3_v52, V3_v53, W2_arg1, W2_arg2]
  rfl

end Cert.KernelIdeal.KResult

end
-- ==== Proof.RefTerm.lean ====
/-
  The reference's result as ONE pure term of its three arguments, stage by stage, in the order its operations run:
  the batch reshaped to [32, 64, 16384]; the row means and the centred batch; the diagonal mask and the identity; the
  regularised covariances; their traces (the masked matrix summed over both axes), the reciprocals, the normalised
  covariances; five Newton-Schulz steps from the identity; the whitening matrices; the product with the centred batch,
  reshaped to [32, 64, 128, 128], scaled and shifted per channel.
-/
import proofs.«102350_j29016799052491_1_alg».proof.Proof.Gen.ReferenceIdeal

noncomputable section

namespace Cert.ReferenceIdeal.RefValue

open Idealize.ShloMosaic Cert.ReferenceIdeal Cert.ReferenceIdeal.Facts₀

variable {F : FTy → Type} [FloatOps F]

/-- The batch as [32, 64, 16384]. -/
def xin (a0 : FVec F S32x64x128x128 .f32) : FVec F S32x64x16384 .f32 :=
  shapeCast S32x64x16384 a0 shapeCasts_S32x64x128x128_S32x64x16384

/-- The row means, as a [32, 64, 1] column: the row sums over 16384. -/
def meanv (X : FVec F S32x64x16384 .f32) : FVec F S32x64x1 .f32 :=
  Host.divf
    (broadcastInDim S32x64x1 ![0, 1] bcast_S32x64_S32x64x1_0_1
      (Host.reduceAdd X (constant S_ .f32 0x00000000#32) reducesTo_S32x64x16384_S32x64_d2 h_S_))
    (broadcastInDim S32x64x1 ![] bcast_S_S32x64x1 (constant S_ .f32 0x46800000#32))

/-- The centred batch. -/
def xcv (X : FVec F S32x64x16384 .f32) : FVec F S32x64x16384 .f32 :=
  subf X (broadcastInDim S32x64x16384 ![0, 1, 2] bcast_S32x64x1_S32x64x16384_0_1_2 (meanv X))

/-- The diagonal mask of a 64 by 64 matrix: row number equals column number. -/
def diag : IVec S64x64 1 :=
  cmpi .eq (addi (iotaInDim S64x64 32 0) (broadcastInDim S64x64 ![] bcast_S_S64x64 (constantI S_ 32 0#32))) (iotaInDim S64x64 32 1)

/-- The 64 by 64 identity. -/
def eye64 : FVec F S64x64 .f32 := uitofp .f32 diag

/-- The regularised covariances. -/
def covv (X : FVec F S32x64x16384 .f32) : FVec F S32x64x64 .f32 :=
  addf
    (Host.divf (Host.dotGeneral dot_S32x64x16384_S32x64x16384_S32x64x64_2_2_1_1_0_0 none (xcv X) (xcv X))
      (broadcastInDim S32x64x64 ![] bcast_S_S32x64x64 (constant S_ .f32 0x46800000#32)))
    (broadcastInDim S32x64x64 ![0, 1, 2] bcast_S1x64x64_S32x64x64_0_1_2
      (broadcastInDim S1x64x64 ![1, 2] bcast_S64x64_S1x64x64_1_2
        (mulf (broadcastInDim S64x64 ![] bcast_S_S64x64 (constant S_ .f32 0x3727C5AC#32)) eye64)))

/-- The traces: each matrix masked to its diagonal and summed over both axes. -/
def trv (C : FVec F S32x64x64 .f32) : FVec F S32 .f32 :=
  Host.reduceAdd
    (select (broadcastInDim S32x64x64 ![1, 2] bcast_S64x64_S32x64x64_1_2 diag) C
      (broadcastInDim S32x64x64 ![] bcast_S_S32x64x64 (constant S_ .f32 0x00000000#32)))
    (constant S_ .f32 0x00000000#32) reducesTo_S32x64x64_S32_d1_2 h_S_

/-- The reciprocals of the traces, as [32, 1, 1]. -/
def rtrv (C : FVec F S32x64x64 .f32) : FVec F S32x1x1 .f32 :=
  Host.divf (broadcastInDim S32x1x1 ![] bcast_S_S32x1x1 (constant S_ .f32 0x3F800000#32))
    (broadcastInDim S32x1x1 ![0] bcast_S32_S32x1x1_0 (trv C))

/-- The trace-normalised covariances. -/
def covnv (C : FVec F S32x64x64 .f32) : FVec F S32x64x64 .f32 :=
  mulf C (broadcastInDim S32x64x64 ![0, 1, 2] bcast_S32x1x1_S32x64x64_0_1_2 (rtrv C))

/-- The batch of identities the iteration starts from. -/
def p0 : FVec F S32x64x64 .f32 := broadcastInDim S32x64x64 ![1, 2] bcast_S64x64_S32x64x64_1_2 eye64

/-- The batched matrix product. -/
def dotM (l r : FVec F S32x64x64 .f32) : FVec F S32x64x64 .f32 :=
  Host.dotGeneral dot_S32x64x64_S32x64x64_S32x64x64_2_1_1_2_0_0 none l r

/-- One Newton-Schulz step: 1.5 P - 0.5 ((P P) P) Cn. -/
def nsStep (Cn P : FVec F S32x64x64 .f32) : FVec F S32x64x64 .f32 :=
  subf (mulf (broadcastInDim S32x64x64 ![] bcast_S_S32x64x64 (constant S_ .f32 0x3FC00000#32)) P)
    (mulf (broadcastInDim S32x64x64 ![] bcast_S_S32x64x64 (constant S_ .f32 0x3F000000#32)) (dotM (dotM (dotM P P) P) Cn))

/-- The whitening matrices: five steps, then scaled by the square roots of the trace reciprocals. -/
def wmv (Cn : FVec F S32x64x64 .f32) (R : FVec F S32x1x1 .f32) : FVec F S32x64x64 .f32 :=
  mulf (nsStep Cn (nsStep Cn (nsStep Cn (nsStep Cn (nsStep Cn p0)))))
    (broadcastInDim S32x64x64 ![0, 1, 2] bcast_S32x1x1_S32x64x64_0_1_2 (Host.sqrt R))

/-- The whitened batch, reshaped, scaled and shifted per channel. -/
def outv (X : FVec F S32x64x16384 .f32) (Wm : FVec F S32x64x64 .f32) (a1 a2 : FVec F S64 .f32) : FVec F S32x64x128x128 .f32 :=
  addf
    (mulf
      (shapeCast S32x64x128x128 (Host.dotGeneral dot_S32x64x64_S32x64x16384_S32x64x16384_2_1_1_2_0_0 none Wm (xcv X))
        shapeCasts_S32x64x16384_S32x64x128x128)
      (broadcastInDim S32x64x128x128 ![0, 1, 2, 3] bcast_S1x64x1x1_S32x64x128x128_0_1_2_3
        (broadcastInDim S1x64x1x1 ![1] bcast_S64_S1x64x1x1_1 a1)))
    (broadcastInDim S32x64x128x128 ![0, 1, 2, 3] bcast_S1x64x1x1_S32x64x128x128_0_1_2_3
      (broadcastInDim S1x64x1x1 ![1] bcast_S64_S1x64x1x1_1 a2))

/-- The whole reference. -/
def result (a0 : FVec F S32x64x128x128 .f32) (a1 a2 : FVec F S64 .f32) : FVec F S32x64x128x128 .f32 :=
  outv (xin a0) (wmv (covnv (covv (xin a0))) (rtrv (covv (xin a0)))) a1 a2

end Cert.ReferenceIdeal.RefValue

end
-- ==== Proof.RefRun.lean ====
/-
  The reference program's run, read back. @main is a straight line of tensor operations: written as one list, with the
  call of @trace replaced by @trace's own operations over that call's buffers (and, inside them, the call of @_where by
  its two), every execution ends with each buffer at the fold of the operations' results over the launch contents.
  Read at the result buffer, that fold is the composed term of the three arguments, which is `RefValue.result` stage
  for stage; read at an argument's buffer, which no operation writes, it is the argument.
-/
import proofs.«102350_j29016799052491_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: its first twenty-six (the reshape, the row means, the centred batch,
    the diagonal mask and the identity, the regularised covariances), then in place of `%21 = call @trace(%20)` the
    twelve operations of that call — @trace's two iotas, the integer zero and its broadcast, the sum and the comparison
    that make the diagonal mask, the float zero and its broadcast, @_where's two (the mask broadcast over the batch, the
    select against the covariances `%20`), the reduction's zero and the sum over both matrix axes into `%21` — and
    then @main's remaining sixty-eight (the reciprocal traces, the normalised covariances, five Newton-Schulz steps, the
    whitening matrices, the product with the centred batch, the reshape, the per-channel scale and shift). -/
abbrev ops : List (HloOp τ sig (Elt F)) :=
  [ reshape main_arg0 main_v0 rfl shapeCasts_S32x64x128x128_S32x64x16384,
    nullary main_cst (constant S_ .f32 0x00000000#32),
    binary main_v0 main_cst main_v1 ((fun x v => Host.reduceAdd x v reducesTo_S32x64x16384_S32x64_d2 h_S_) : (⟨S32x64x16384, .f32⟩ : BufTy).Contents (Elt F) → (⟨S_, .f32⟩ : BufTy).Contents (Elt F) → (⟨S32x64, .f32⟩ : BufTy).Contents (Elt F)),
    unary main_v1 main_v2 (broadcastInDim S32x64x1 ![0, 1] bcast_S32x64_S32x64x1_0_1 : (⟨S32x64, .f32⟩ : BufTy).Contents (Elt F) → (⟨S32x64x1, .f32⟩ : BufTy).Contents (Elt F)),
    nullary main_cst_0 (constant S_ .f32 0x46800000#32),
    unary main_cst_0 main_v3 (broadcastInDim S32x64x1 ![] bcast_S_S32x64x1 : (⟨S_, .f32⟩ : BufTy).Contents (Elt F) → (⟨S32x64x1, .f32⟩ : BufTy).Contents (Elt F)),
    binary main_v2 main_v3 main_v4 (Host.divf : (⟨S32x64x1, .f32⟩ : BufTy).Contents (Elt F) → (⟨S32x64x1, .f32⟩ : BufTy).Contents (Elt F) → (⟨S32x64x1, .f32⟩ : BufTy).Contents (Elt F)),
    unary main_v4 main_v5 (broadcastInDim S32x64x16384 ![0, 1, 2] bcast_S32x64x1_S32x64x16384_0_1_2 : (⟨S32x64x1, .f32⟩ : BufTy).Contents (Elt F) → (⟨S32x64x16384, .f32⟩ : BufTy).Contents (Elt F)),
    binary main_v0 main_v5 main_v6 (subf : (⟨S32x64x16384, .f32⟩ : BufTy).Contents (Elt F) → (⟨S32x64x16384, .f32⟩ : BufTy).Contents (Elt F) → (⟨S32x64x16384, .f32⟩ : BufTy).Contents (Elt F)),
    nullary main_v7 (iotaInDim S64x64 32 0),
    nullary main_v8 (iotaInDim S64x64 32 1),
    nullary main_c (constantI S_ 32 0#32),
    unary main_c main_v9 (broadcastInDim S64x64 ![] bcast_S_S64x64 : (⟨S_, .i32⟩ : BufTy).Contents (Elt F) → (⟨S64x64, .i32⟩ : BufTy).Contents (Elt F)),
    binary main_v7 main_v9 main_v10 (addi : (⟨S64x64, .i32⟩ : BufTy).Contents (Elt F) → (⟨S64x64, .i32⟩ : BufTy).Contents (Elt F) → (⟨S64x64, .i32⟩ : BufTy).Contents (Elt F)),
    binary main_v10 main_v8 main_v11 (cmpi .eq : (⟨S64x64, .i32⟩ : BufTy).Contents (Elt F) → (⟨S64x64, .i32⟩ : BufTy).Contents (Elt F) → (⟨S64x64, .i1⟩ : BufTy).Contents (Elt F)),
    unary main_v11 main_v12 (uitofp .f32 : (⟨S64x64, .i1⟩ : BufTy).Contents (Elt F) → (⟨S64x64, .f32⟩ : BufTy).Contents (Elt F)),
    binary main_v6 main_v6 main_v13 ((fun l r => Host.dotGeneral dot_S32x64x16384_S32x64x16384_S32x64x64_2_2_1_1_0_0 none l r) : (⟨S32x64x16384, .f32⟩ : BufTy).Contents (Elt F) → (⟨S32x64x16384, .f32⟩ : BufTy).Contents (Elt F) → (⟨S32x64x64, .f32⟩ : BufTy).Contents (Elt F)),
    nullary main_cst_1 (constant S_ .f32 0x46800000#32),
    unary main_cst_1 main_v14 (broadcastInDim S32x64x64 ![] bcast_S_S32x64x64 : (⟨S_, .f32⟩ : BufTy).Contents (Elt F) → (⟨S32x64x64, .f32⟩ : BufTy).Contents (Elt F)),
    binary main_v13 main_v14 main_v15 (Host.divf : (⟨S32x64x64, .f32⟩ : BufTy).Contents (Elt F) → (⟨S32x64x64, .f32⟩ : BufTy).Contents (Elt F) → (⟨S32x64x64, .f32⟩ : BufTy).Contents (Elt F)),
    nullary main_cst_2 (constant S_ .f32 0x3727C5AC#32),
    unary main_cst_2 main_v16 (broadcastInDim S64x64 ![] bcast_S_S64x64 : (⟨S_, .f32⟩ : BufTy).Contents (Elt F) → (⟨S64x64, .f32⟩ : BufTy).Contents (Elt F)),
    binary main_v16 main_v12 main_v17 (mulf : (⟨S64x64, .f32⟩ : BufTy).Contents (Elt F) → (⟨S64x64, .f32⟩ : BufTy).Contents (Elt F) → (⟨S64x64, .f32⟩ : BufTy).Contents (Elt F)),
    unary main_v17 main_v18 (broadcastInDim S1x64x64 ![1, 2] bcast_S64x64_S1x64x64_1_2 : (⟨S64x64, .f32⟩ : BufTy).Contents (Elt F) → (⟨S1x64x64, .f32⟩ : BufTy).Contents (Elt F)),
    unary main_v18 main_v19 (broadcastInDim S32x64x64 ![0, 1, 2] bcast_S1x64x64_S32x64x64_0_1_2 : (⟨S1x64x64, .f32⟩ : BufTy).Contents (Elt F) → (⟨S32x64x64, .f32⟩ : BufTy).Contents (Elt F)),
    binary main_v15 main_v19 main_v20 (addf : (⟨S32x64x64, .f32⟩ : BufTy).Contents (Elt F) → (⟨S32x64x64, .f32⟩ : BufTy).Contents (Elt F) → (⟨S32x64x64, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S32x64x64 ![] bcast_S_S32x64x64),
    TRef.unary main_call0.v4 main_call0.call0.v0 (broadcastInDim S32x64x64 ![1, 2] bcast_S64x64_S32x64x64_1_2),
    TRef.ternary main_call0.call0.v0 (.of main_v20 : TRef sig ⟨S32x64x64, .f32⟩) main_call0.v5 main_call0.call0.v1 select,
    TRef.nullary main_call0.cst_0 (constant S_ .f32 0x00000000#32),
    TRef.binary main_call0.call0.v1 main_call0.cst_0 main_call0.v7 (fun x v => Host.reduceAdd x v reducesTo_S32x64x64_S32_d1_2 h_S_),
    unary main_v21 main_v22 (broadcastInDim S32x1x1 ![0] bcast_S32_S32x1x1_0 : (⟨S32, .f32⟩ : BufTy).Contents (Elt F) → (⟨S32x1x1, .f32⟩ : BufTy).Contents (Elt F)),
    nullary main_cst_3 (constant S_ .f32 0x3F800000#32),
    unary main_cst_3 main_v23 (broadcastInDim S32x1x1 ![] bcast_S_S32x1x1 : (⟨S_, .f32⟩ : BufTy).Contents (Elt F) → (⟨S32x1x1, .f32⟩ : BufTy).Contents (Elt F)),
    binary main_v23 main_v22 main_v24 (Host.divf : (⟨S32x1x1, .f32⟩ : BufTy).Contents (Elt F) → (⟨S32x1x1, .f32⟩ : BufTy).Contents (Elt F) → (⟨S32x1x1, .f32⟩ : BufTy).Contents (Elt F)),
    unary main_v24 main_v25 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v20 main_v25 main_v26 (mulf : (⟨S32x64x64, .f32⟩ : BufTy).Contents (Elt F) → (⟨S32x64x64, .f32⟩ : BufTy).Contents (Elt F) → (⟨S32x64x64, .f32⟩ : BufTy).Contents (Elt F)),
    unary main_v12 main_v27 (broadcastInDim S32x64x64 ![1, 2] bcast_S64x64_S32x64x64_1_2 : (⟨S64x64, .f32⟩ : BufTy).Contents (Elt F) → (⟨S32x64x64, .f32⟩ : BufTy).Contents (Elt F)),
    binary main_v27 main_v27 main_v28 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v28 main_v27 main_v29 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_4 (constant S_ .f32 0x3FC00000#32),
    unary main_cst_4 main_v30 (broadcastInDim S32x64x64 ![] bcast_S_S32x64x64 : (⟨S_, .f32⟩ : BufTy).Contents (Elt F) → (⟨S32x64x64, .f32⟩ : BufTy).Contents (Elt F)),
    binary main_v30 main_v27 main_v31 (mulf : (⟨S32x64x64, .f32⟩ : BufTy).Contents (Elt F) → (⟨S32x64x64, .f32⟩ : BufTy).Contents (Elt F) → (⟨S32x64x64, .f32⟩ : BufTy).Contents (Elt F)),
    binary main_v29 main_v26 main_v32 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_5 (constant S_ .f32 0x3F000000#32),
    unary main_cst_5 main_v33 (broadcastInDim S32x64x64 ![] bcast_S_S32x64x64 : (⟨S_, .f32⟩ : BufTy).Contents (Elt F) → (⟨S32x64x64, .f32⟩ : BufTy).Contents (Elt F)),
    binary main_v33 main_v32 main_v34 (mulf : (⟨S32x64x64, .f32⟩ : BufTy).Contents (Elt F) → (⟨S32x64x64, .f32⟩ : BufTy).Contents (Elt F) → (⟨S32x64x64, .f32⟩ : BufTy).Contents (Elt F)),
    binary main_v31 main_v34 main_v35 (subf : (⟨S32x64x64, .f32⟩ : BufTy).Contents (Elt F) → (⟨S32x64x64, .f32⟩ : BufTy).Contents (Elt F) → (⟨S32x64x64, .f32⟩ : BufTy).Contents (Elt F)),
    binary main_v35 main_v35 main_v36 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v36 main_v35 main_v37 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_6 (constant S_ .f32 0x3FC00000#32),
    unary main_cst_6 main_v38 (broadcastInDim S32x64x64 ![] bcast_S_S32x64x64 : (⟨S_, .f32⟩ : BufTy).Contents (Elt F) → (⟨S32x64x64, .f32⟩ : BufTy).Contents (Elt F)),
    binary main_v38 main_v35 main_v39 (mulf : (⟨S32x64x64, .f32⟩ : BufTy).Contents (Elt F) → (⟨S32x64x64, .f32⟩ : BufTy).Contents (Elt F) → (⟨S32x64x64, .f32⟩ : BufTy).Contents (Elt F)),
    binary main_v37 main_v26 main_v40 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_7 (constant S_ .f32 0x3F000000#32),
    unary main_cst_7 main_v41 (broadcastInDim S32x64x64 ![] bcast_S_S32x64x64 : (⟨S_, .f32⟩ : BufTy).Contents (Elt F) → (⟨S32x64x64, .f32⟩ : BufTy).Contents (Elt F)),
    binary main_v41 main_v40 main_v42 (mulf : (⟨S32x64x64, .f32⟩ : BufTy).Contents (Elt F) → (⟨S32x64x64, .f32⟩ : BufTy).Contents (Elt F) → (⟨S32x64x64, .f32⟩ : BufTy).Contents (Elt F)),
    binary main_v39 main_v42 main_v43 (subf : (⟨S32x64x64, .f32⟩ : BufTy).Contents (Elt F) → (⟨S32x64x64, .f32⟩ : BufTy).Contents (Elt F) → (⟨S32x64x64, .f32⟩ : BufTy).Contents (Elt F)),
    binary main_v43 main_v43 main_v44 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v44 main_v43 main_v45 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_8 (constant S_ .f32 0x3FC00000#32),
    unary main_cst_8 main_v46 (broadcastInDim S32x64x64 ![] bcast_S_S32x64x64 : (⟨S_, .f32⟩ : BufTy).Contents (Elt F) → (⟨S32x64x64, .f32⟩ : BufTy).Contents (Elt F)),
    binary main_v46 main_v43 main_v47 (mulf : (⟨S32x64x64, .f32⟩ : BufTy).Contents (Elt F) → (⟨S32x64x64, .f32⟩ : BufTy).Contents (Elt F) → (⟨S32x64x64, .f32⟩ : BufTy).Contents (Elt F)),
    binary main_v45 main_v26 main_v48 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_9 (constant S_ .f32 0x3F000000#32),
    unary main_cst_9 main_v49 (broadcastInDim S32x64x64 ![] bcast_S_S32x64x64 : (⟨S_, .f32⟩ : BufTy).Contents (Elt F) → (⟨S32x64x64, .f32⟩ : BufTy).Contents (Elt F)),
    binary main_v49 main_v48 main_v50 (mulf : (⟨S32x64x64, .f32⟩ : BufTy).Contents (Elt F) → (⟨S32x64x64, .f32⟩ : BufTy).Contents (Elt F) → (⟨S32x64x64, .f32⟩ : BufTy).Contents (Elt F)),
    binary main_v47 main_v50 main_v51 (subf : (⟨S32x64x64, .f32⟩ : BufTy).Contents (Elt F) → (⟨S32x64x64, .f32⟩ : BufTy).Contents (Elt F) → (⟨S32x64x64, .f32⟩ : BufTy).Contents (Elt F)),
    binary main_v51 main_v51 main_v52 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v52 main_v51 main_v53 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_10 (constant S_ .f32 0x3FC00000#32),
    unary main_cst_10 main_v54 (broadcastInDim S32x64x64 ![] bcast_S_S32x64x64 : (⟨S_, .f32⟩ : BufTy).Contents (Elt F) → (⟨S32x64x64, .f32⟩ : BufTy).Contents (Elt F)),
    binary main_v54 main_v51 main_v55 (mulf : (⟨S32x64x64, .f32⟩ : BufTy).Contents (Elt F) → (⟨S32x64x64, .f32⟩ : BufTy).Contents (Elt F) → (⟨S32x64x64, .f32⟩ : BufTy).Contents (Elt F)),
    binary main_v53 main_v26 main_v56 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_11 (constant S_ .f32 0x3F000000#32),
    unary main_cst_11 main_v57 (broadcastInDim S32x64x64 ![] bcast_S_S32x64x64 : (⟨S_, .f32⟩ : BufTy).Contents (Elt F) → (⟨S32x64x64, .f32⟩ : BufTy).Contents (Elt F)),
    binary main_v57 main_v56 main_v58 (mulf : (⟨S32x64x64, .f32⟩ : BufTy).Contents (Elt F) → (⟨S32x64x64, .f32⟩ : BufTy).Contents (Elt F) → (⟨S32x64x64, .f32⟩ : BufTy).Contents (Elt F)),
    binary main_v55 main_v58 main_v59 (subf : (⟨S32x64x64, .f32⟩ : BufTy).Contents (Elt F) → (⟨S32x64x64, .f32⟩ : BufTy).Contents (Elt F) → (⟨S32x64x64, .f32⟩ : BufTy).Contents (Elt F)),
    binary main_v59 main_v59 main_v60 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    binary main_v60 main_v59 main_v61 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_12 (constant S_ .f32 0x3FC00000#32),
    unary main_cst_12 main_v62 (broadcastInDim S32x64x64 ![] bcast_S_S32x64x64 : (⟨S_, .f32⟩ : BufTy).Contents (Elt F) → (⟨S32x64x64, .f32⟩ : BufTy).Contents (Elt F)),
    binary main_v62 main_v59 main_v63 (mulf : (⟨S32x64x64, .f32⟩ : BufTy).Contents (Elt F) → (⟨S32x64x64, .f32⟩ : BufTy).Contents (Elt F) → (⟨S32x64x64, .f32⟩ : BufTy).Contents (Elt F)),
    binary main_v61 main_v26 main_v64 ((fun l r => Host.dotGeneral dot_S32x64x64_S32x64x64_S32x64x64_2_1_1_2_0_0 none l r) : (⟨S32x64x64, .f32⟩ : BufTy).Contents (Elt F) → (⟨S32x64x64, .f32⟩ : BufTy).Contents (Elt F) → (⟨S32x64x64, .f32⟩ : BufTy).Contents (Elt F)),
    nullary main_cst_13 (constant S_ .f32 0x3F000000#32),
    unary main_cst_13 main_v65 (broadcastInDim S32x64x64 ![] bcast_S_S32x64x64 : (⟨S_, .f32⟩ : BufTy).Contents (Elt F) → (⟨S32x64x64, .f32⟩ : BufTy).Contents (Elt F)),
    binary main_v65 main_v64 main_v66 (mulf : (⟨S32x64x64, .f32⟩ : BufTy).Contents (Elt F) → (⟨S32x64x64, .f32⟩ : BufTy).Contents (Elt F) → (⟨S32x64x64, .f32⟩ : BufTy).Contents (Elt F)),
    binary main_v63 main_v66 main_v67 (subf : (⟨S32x64x64, .f32⟩ : BufTy).Contents (Elt F) → (⟨S32x64x64, .f32⟩ : BufTy).Contents (Elt F) → (⟨S32x64x64, .f32⟩ : BufTy).Contents (Elt F)),
    unary main_v24 main_v68 (Host.sqrt : (⟨S32x1x1, .f32⟩ : BufTy).Contents (Elt F) → (⟨S32x1x1, .f32⟩ : BufTy).Contents (Elt F)),
    unary main_v68 main_v69 (broadcastInDim S32x64x64 ![0, 1, 2] bcast_S32x1x1_S32x64x64_0_1_2 : (⟨S32x1x1, .f32⟩ : BufTy).Contents (Elt F) → (⟨S32x64x64, .f32⟩ : BufTy).Contents (Elt F)),
    binary main_v67 main_v69 main_v70 (mulf : (⟨S32x64x64, .f32⟩ : BufTy).Contents (Elt F) → (⟨S32x64x64, .f32⟩ : BufTy).Contents (Elt F) → (⟨S32x64x64, .f32⟩ : BufTy).Contents (Elt F)),
    binary main_v70 main_v6 main_v71 ((fun l r => Host.dotGeneral dot_S32x64x64_S32x64x16384_S32x64x16384_2_1_1_2_0_0 none l r) : (⟨S32x64x64, .f32⟩ : BufTy).Contents (Elt F) → (⟨S32x64x16384, .f32⟩ : BufTy).Contents (Elt F) → (⟨S32x64x16384, .f32⟩ : BufTy).Contents (Elt F)),
    reshape main_v71 main_v72 rfl shapeCasts_S32x64x16384_S32x64x128x128,
    unary main_arg1 main_v73 (broadcastInDim S1x64x1x1 ![1] bcast_S64_S1x64x1x1_1 : (⟨S64, .f32⟩ : BufTy).Contents (Elt F) → (⟨S1x64x1x1, .f32⟩ : BufTy).Contents (Elt F)),
    unary main_v73 main_v74 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v72 main_v74 main_v75 (mulf : (⟨S32x64x128x128, .f32⟩ : BufTy).Contents (Elt F) → (⟨S32x64x128x128, .f32⟩ : BufTy).Contents (Elt F) → (⟨S32x64x128x128, .f32⟩ : BufTy).Contents (Elt F)),
    unary main_arg2 main_v76 (broadcastInDim S1x64x1x1 ![1] bcast_S64_S1x64x1x1_1 : (⟨S64, .f32⟩ : BufTy).Contents (Elt F) → (⟨S1x64x1x1, .f32⟩ : BufTy).Contents (Elt F)),
    unary main_v76 main_v77 (broadcastInDim S32x64x128x128 ![0, 1, 2, 3] bcast_S1x64x1x1_S32x64x128x128_0_1_2_3 : (⟨S1x64x1x1, .f32⟩ : BufTy).Contents (Elt F) → (⟨S32x64x128x128, .f32⟩ : BufTy).Contents (Elt F)),
    binary main_v75 main_v77 main_v78 (addf : (⟨S32x64x128x128, .f32⟩ : BufTy).Contents (Elt F) → (⟨S32x64x128x128, .f32⟩ : BufTy).Contents (Elt F) → (⟨S32x64x128x128, .f32⟩ : BufTy).Contents (Elt F)) ]

set_option maxHeartbeats 4000000 in
/-- @main is that straight line: its two windows, the two functions' bodies at their calls and the call records at their
    fields all unfold, and both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., unary_bufs_sub .., binary_bufs_sub .., nullary_bufs_sub .., nullary_bufs_sub .., nullary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub .., nullary_bufs_sub .., nullary_bufs_sub .., nullary_bufs_sub .., unary_bufs_sub ..,
    binary_bufs_sub .., binary_bufs_sub .., nullary_bufs_sub .., unary_bufs_sub .., unary_bufs_sub .., ternary_bufs_sub ..,
    nullary_bufs_sub .., binary_bufs_sub .., unary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    unary_bufs_sub .., binary_bufs_sub .., binary_bufs_sub .., reshape_bufs_sub .., unary_bufs_sub .., unary_bufs_sub ..,
    binary_bufs_sub .., unary_bufs_sub .., unary_bufs_sub .., binary_bufs_sub ..⟩

set_option maxHeartbeats 42400000 in
/-- The fold at the result buffer. Each operation's result at its own buffer is its function of its operands' contents,
    and at any other buffer what was there; unfolding from the last operation back to the arguments composes the
    operations into one term, and that term is `RefValue.result` of the three arguments' contents by definition: the
    stages of `RefValue` are the operations in order, the mask of @trace's call being the same term as @main's own,
    and the typed references of the call's operations carry their contents across unchanged. -/
theorem out_eq (V : Valuation τ sig (Elt F)) :
    after ops V (Proc.devRef .tc main_v78)
      = RefValue.result (V (Proc.devRef .tc main_arg0)) (V (Proc.devRef .tc main_arg1)) (V (Proc.devRef .tc main_arg2)) := by
  after_results_simp
  rfl

set_option maxHeartbeats 42400000 in
/-- No operation writes the first argument's buffer. -/
theorem arg0_eq (V : Valuation τ sig (Elt F)) :
    after ops V (Proc.devRef .tc main_arg0) = V (Proc.devRef .tc main_arg0) := by
  after_results_simp

set_option maxHeartbeats 42400000 in
/-- No operation writes the second argument's buffer. -/
theorem arg1_eq (V : Valuation τ sig (Elt F)) :
    after ops V (Proc.devRef .tc main_arg1) = V (Proc.devRef .tc main_arg1) := by
  after_results_simp

set_option maxHeartbeats 42400000 in
/-- No operation writes the third argument's buffer. -/
theorem arg2_eq (V : Valuation τ sig (Elt F)) :
    after ops V (Proc.devRef .tc main_arg2) = V (Proc.devRef .tc main_arg2) := by
  after_results_simp

/-- On every device, for any float values, from any memory with zero counters: every weakly fair execution of @main
    terminates with the result buffer at `RefValue.result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
          = RefValue.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v78).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.Chain.lean ====
/-
  The host iteration is one function in both programs. The kernel program asks its batched matrix products for the
  highest precision and the reference for the default; over the extended reals a product at an index is the plain sum of
  the operands' products whatever precision is asked, so the two batched products are equal, and with them each
  Newton-Schulz step, the batch of identities the iteration starts from, and the whitening matrices.
-/
import proofs.«102350_j29016799052491_1_alg».proof.Proof.KTerm
import proofs.«102350_j29016799052491_1_alg».proof.Proof.RefTerm
import Idealize.ShloMosaic.PureOps.Ideal.Laws

noncomputable section

namespace Cert.Chain

open Idealize.ShloMosaic
open Cert.KernelIdeal (S32x64x64 S32x1x1)

/-- The batched matrix product, at either precision. -/
theorem dotM_eq (l r : FVec Ideal S32x64x64 .f32) :
    Cert.KernelIdeal.KValue.dotM (F := Ideal) l r = Cert.ReferenceIdeal.RefValue.dotM (F := Ideal) l r := by
  funext j
  unfold Cert.KernelIdeal.KValue.dotM Cert.ReferenceIdeal.RefValue.dotM
  simp only [Host.dotGeneral]
  rw [Ideal.dotGeneral_apply, Ideal.dotGeneral_apply]
  rfl

/-- One Newton-Schulz step. -/
theorem nsStep_eq (Cn P : FVec Ideal S32x64x64 .f32) :
    Cert.KernelIdeal.KValue.nsStep (F := Ideal) Cn P = Cert.ReferenceIdeal.RefValue.nsStep (F := Ideal) Cn P := by
  unfold Cert.KernelIdeal.KValue.nsStep Cert.ReferenceIdeal.RefValue.nsStep
  rw [dotM_eq, dotM_eq, dotM_eq]

/-- The batch of identities. -/
theorem p0_eq : Cert.KernelIdeal.KValue.p0 (F := Ideal) = Cert.ReferenceIdeal.RefValue.p0 (F := Ideal) := rfl

/-- The whitening matrices. -/
theorem wmv_eq (Cn : FVec Ideal S32x64x64 .f32) (R : FVec Ideal S32x1x1 .f32) :
    Cert.KernelIdeal.KValue.wmv (F := Ideal) Cn R = Cert.ReferenceIdeal.RefValue.wmv (F := Ideal) Cn R := by
  unfold Cert.KernelIdeal.KValue.wmv Cert.ReferenceIdeal.RefValue.wmv
  rw [nsStep_eq, nsStep_eq, nsStep_eq, nsStep_eq, nsStep_eq, p0_eq]

end Cert.Chain

end
-- ==== Proof.Reshape.lean ====
/-
  The last layout steps of the kernel program read at an index: the [32, 64, 16384] output viewed as
  [32, 64, 128, 128] holds at (n, c, h, w) the entry at position 128 h + w of row (n, c), and a [64] vector viewed as a
  [64, 1] column holds at (c, 0) the vector's entry c. So the kernel program's reshaped output over the two columns is
  the specification's output in the four-axis layout over the two vectors.
-/
import proofs.«102350_j29016799052491_1_alg».proof.Proof.KTerm
import proofs.«102350_j29016799052491_1_alg».proof.Proof.Spec
import proofs.«102350_j29016799052491_1_alg».proof.Proof.LibKeepdims
import Idealize.ShloMosaic.Lib.ValueIdx
import Idealize.ShloMosaic.Lib.Pipeline.Value

noncomputable section

namespace Cert.Reshape

open Idealize.ShloMosaic Idealize.ShloMosaic.ValueIdx Cert.KernelIdeal

/-- The four-axis view at (n, c, h, w) is the three-axis array at (n, c, 128 h + w). -/
theorem out4_apply (O : FVec Ideal S32x64x16384 .f32) (n : Fin 32) (c : Fin 64) (h w : Fin 128) :
    KValue.out4 (F := Ideal) O (ix4 n c h w) = O (ix3 n c (Whiten.pos h w)) := by
  unfold KValue.out4
  refine shapeCast_apply O _ (ix4 n c h w) (ix3 n c (Whiten.pos h w)) ?_
  rw [Shape.rowMajor_val_three, Shape.rowMajor_val_four]
  show (n.val * 64 + c.val) * 16384 + (h.val * 128 + w.val) = ((n.val * 64 + c.val) * 128 + h.val) * 128 + w.val
  omega

/-- The column view at (c, 0) is the vector at c. -/
theorem col_apply (a : FVec Ideal S64 .f32) (c : Fin 64) : KValue.col (F := Ideal) a (ix2 c (0 : Fin 1)) = a (ix1 c) := by
  unfold KValue.col
  exact Keepdims.shapeCast_a_a1_apply a _ c 0

/-- The reshaped output over the two columns is the specification's four-axis output over the two vectors. -/
theorem out4_outArr (X : FVec Ideal S32x64x16384 .f32) (Wm : FVec Ideal S32x64x64 .f32) (a1 a2 : FVec Ideal S64 .f32) :
    KValue.out4 (F := Ideal) (Whiten.outArr X Wm (KValue.col (F := Ideal) a1) (KValue.col (F := Ideal) a2)) = Whiten.outArr4 X Wm a1 a2 := by
  funext i
  obtain ⟨n, c, h, w, rfl⟩ : ∃ (n : Fin 32) (c : Fin 64) (h w : Fin 128), i = ix4 n c h w := ⟨i 0, i 1, i 2, i 3, eq_ix4 i⟩
  rw [out4_apply]
  unfold Whiten.outArr Whiten.outArr4
  simp only [col_apply]

end Cert.Reshape

end
-- ==== Proof.RefCov.lean ====
/-
  The reference's covariance stages read entry by entry. For a batch X of 32 samples of 64 channels by 16384 positions
  the staged term takes each row's sum over the positions from the zero word and divides it by 16384 (the row mean),
  subtracts the mean from the row (the centred batch), contracts the centred batch with itself over the positions
  sample by sample (the Gram matrices), divides by 16384 and adds ε times the identity, whose entries are the diagonal
  bit read as 0 or 1 (the regularised covariances). The trace is the covariance masked to its diagonal and summed over
  both matrix axes at once; regrouped, that one sum is the double sum over rows and columns. Its reciprocal scales the
  covariance. Entry by entry these are the specification's `covn` and `rtr` of sample n.
-/
import proofs.«102350_j29016799052491_1_alg».proof.Proof.RefTerm
import proofs.«102350_j29016799052491_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefCov

open Idealize.ShloMosaic Idealize.ShloMosaic.ValueIdx Cert.ReferenceIdeal

/-- The row sums of the batch: the sum over the position axis, from the zero initial value. -/
theorem rowsum_apply (X : FVec Ideal S32x64x16384 .f32) (n : Fin 32) (c : Fin 64) :
    Host.reduceAdd (F := Ideal) X (constant (F := Ideal) S_ .f32 0x00000000#32)
        Facts₀.reducesTo_S32x64x16384_S32x64_d2 Facts₀.h_S_ (ix2 n c)
      = ∑ s : Fin 16384, X (ix3 n c s) := by
  rw [hostReduceAdd_apply]
  refine (Ideal.hostReduceAdd_single _ (by decide : S32x64x16384.Reduces [2] S32x64) X _ (ix2 n c)).trans ?_
  rw [constant_apply, Ideal.ofBits_zero_f32, zero_add]
  refine Finset.sum_congr rfl fun k _ => ?_
  refine congrArg X (funext fun ax => Fin.ext ?_)
  rw [Shape.Reduces.lift_val]
  match ax with
  | ⟨0, _⟩ => rfl
  | ⟨1, _⟩ => rfl
  | ⟨2, _⟩ => rfl

/-- The row means, read at an index: the row sum divided by 16384. -/
theorem meanv_apply (X : FVec Ideal S32x64x16384 .f32) (n : Fin 32) (c : Fin 64) (u : Fin 1) :
    RefValue.meanv (F := Ideal) X (ix3 n c u) = Whiten.mean (Whiten.slice X n) c := by
  unfold RefValue.meanv
  rw [hostDivf_apply, broadcastInDim_scalar_apply, constant_apply]
  rw [broadcastInDim_apply ![0, 1] _ _ (ix3 n c u) (ix2 n c) (by
    intro a
    match a with
    | ⟨0, _⟩ => rfl
    | ⟨1, _⟩ => rfl)]
  rw [rowsum_apply]
  rfl

/-- The centred batch, read at an index. -/
theorem xcv_apply (X : FVec Ideal S32x64x16384 .f32) (n : Fin 32) (c : Fin 64) (s : Fin 16384) :
    RefValue.xcv (F := Ideal) X (ix3 n c s) = Whiten.xc (Whiten.slice X n) c s := by
  unfold RefValue.xcv
  rw [subf_apply]
  rw [broadcastInDim_apply ![0, 1, 2] _ _ (ix3 n c s) (ix3 n c (0 : Fin 1)) (by
    intro a
    match a with
    | ⟨0, _⟩ => rfl
    | ⟨1, _⟩ => rfl
    | ⟨2, _⟩ => rfl)]
  rw [meanv_apply]
  rfl

/-- The diagonal mask, read at an index. -/
theorem diag_apply (c d : Fin 64) : RefValue.diag (ix2 c d) = Whiten.diagBit c d := by
  unfold RefValue.diag Whiten.diagBit
  show IntOp.cmpi .eq (IntOp.addi (BitVec.ofNat 32 c.val) (0#32)) (BitVec.ofNat 32 d.val) = _
  unfold IntOp.addi
  rw [BitVec.add_zero]

/-- The identity, read at an index. -/
theorem eye64_apply (c d : Fin 64) : RefValue.eye64 (F := Ideal) (ix2 c d) = Whiten.eye c d := by
  unfold RefValue.eye64 Whiten.eye
  rw [← diag_apply]
  rfl

/-- The batched Gram product, read at an index: the sum over the positions of the products of the two rows. -/
theorem gramdot_apply (A B : FVec Ideal S32x64x16384 .f32) (n : Fin 32) (c d : Fin 64) :
    Host.dotGeneral (F := Ideal) dot_S32x64x16384_S32x64x16384_S32x64x64_2_2_1_1_0_0 none A B (ix3 n c d)
      = ∑ s : Fin 16384, A (ix3 n c s) * B (ix3 n d s) := by
  show FloatOps.dotGeneral _ none _ A B (ix3 n c d) = _
  rw [Ideal.dotGeneral_apply,
    ← Equiv.sum_comp (contrEquiv1 dot_S32x64x16384_S32x64x16384_S32x64x64_2_2_1_1_0_0 16384 rfl rfl).symm]
  refine Finset.sum_congr rfl fun s _ => ?_
  have c3 := contrEquiv1_symm_val dot_S32x64x16384_S32x64x16384_S32x64x64_2_2_1_1_0_0 16384 rfl rfl s
  have l3 : dot_S32x64x16384_S32x64x16384_S32x64x64_2_2_1_1_0_0.lhsIdx (ix3 n c d)
      ((contrEquiv1 _ 16384 rfl rfl).symm s) = ix3 n c s := by
    funext ax; apply Fin.ext
    match ax with
    | ⟨0, _⟩ => simp [DotDims.lhsIdx, dot_S32x64x16384_S32x64x16384_S32x64x64_2_2_1_1_0_0]; rfl
    | ⟨1, _⟩ => simp [DotDims.lhsIdx, dot_S32x64x16384_S32x64x16384_S32x64x64_2_2_1_1_0_0]; rfl
    | ⟨2, _⟩ => simp [DotDims.lhsIdx, dot_S32x64x16384_S32x64x16384_S32x64x64_2_2_1_1_0_0]; exact c3
  have r3 : dot_S32x64x16384_S32x64x16384_S32x64x64_2_2_1_1_0_0.rhsIdx (ix3 n c d)
      ((contrEquiv1 _ 16384 rfl rfl).symm s) = ix3 n d s := by
    funext ax; apply Fin.ext
    match ax with
    | ⟨0, _⟩ => simp [DotDims.rhsIdx, dot_S32x64x16384_S32x64x16384_S32x64x64_2_2_1_1_0_0]; rfl
    | ⟨1, _⟩ => simp [DotDims.rhsIdx, dot_S32x64x16384_S32x64x16384_S32x64x64_2_2_1_1_0_0]; rfl
    | ⟨2, _⟩ => simp [DotDims.rhsIdx, dot_S32x64x16384_S32x64x16384_S32x64x64_2_2_1_1_0_0]; exact c3
  rw [l3, r3]

/-- The regularised covariances, read at an index. -/
theorem covv_apply (X : FVec Ideal S32x64x16384 .f32) (n : Fin 32) (c d : Fin 64) :
    RefValue.covv (F := Ideal) X (ix3 n c d) = Whiten.cov (Whiten.slice X n) c d := by
  unfold RefValue.covv
  rw [addf_apply, hostDivf_apply, gramdot_apply, broadcastInDim_scalar_apply, constant_apply]
  rw [broadcastInDim_apply ![0, 1, 2] _ _ (ix3 n c d) (ix3 (0 : Fin 1) c d) (by
    intro a
    match a with
    | ⟨0, _⟩ => rfl
    | ⟨1, _⟩ => rfl
    | ⟨2, _⟩ => rfl)]
  rw [broadcastInDim_apply ![1, 2] _ _ (ix3 (0 : Fin 1) c d) (ix2 c d) (by
    intro a
    match a with
    | ⟨0, _⟩ => rfl
    | ⟨1, _⟩ => rfl)]
  rw [mulf_apply, broadcastInDim_scalar_apply, constant_apply, eye64_apply]
  rw [Finset.sum_congr rfl fun s _ => by rw [xcv_apply, xcv_apply]]
  rfl

/-- Dropping the two matrix axes of an index of a batch of matrices leaves the sample number. -/
theorem drop12_eq_iff (h : S32x64x64.ReducesTo [1, 2] S32) (i : S32x64x64.Idx) (n : Fin 32) :
    h.drop i = ix1 n ↔ (i 0).val = n.val := by
  have hv : ((h.drop i) ⟨0, by decide⟩ : Nat) = (i 0).val :=
    Shape.ReducesTo.drop_apply_val_of_eq h i ⟨0, by decide⟩ 0
  constructor
  · intro e
    rw [← hv, e]
  · intro e
    funext b
    match b with
    | ⟨0, _⟩ => exact Fin.ext (hv.trans e)

/-- The sum over both matrix axes, read at a sample: the initial value plus the double sum over rows and columns. -/
theorem hostReduceAdd12_apply (h : S32x64x64.ReducesTo [1, 2] S32) (f : S32x64x64.Idx → EReal) (init : EReal) (n : Fin 32) :
    Ideal.hostReduceAdd h f init (ix1 n) = init + ∑ c : Fin 64, ∑ d : Fin 64, f (ix3 n c d) := by
  unfold Ideal.hostReduceAdd
  refine congrArg (init + ·) ?_
  refine Eq.trans ?_ (Fintype.sum_prod_type' (fun (c : Fin 64) (d : Fin 64) => f (ix3 n c d)))
  refine Finset.sum_nbij' (fun i => ((i 1 : Fin 64), (i 2 : Fin 64))) (fun p => ix3 n p.1 p.2) ?_ ?_ ?_ ?_ ?_
  · intro a _
    exact Finset.mem_univ _
  · intro p _
    refine Finset.mem_filter.mpr ⟨Finset.mem_univ _, ?_⟩
    exact (drop12_eq_iff h _ n).mpr rfl
  · intro a ha
    have e : (a 0).val = n.val := (drop12_eq_iff h a n).mp (Finset.mem_filter.mp ha).2
    funext ax
    match ax with
    | ⟨0, _⟩ => exact Fin.ext e.symm
    | ⟨1, _⟩ => rfl
    | ⟨2, _⟩ => rfl
  · intro p _
    rfl
  · intro a ha
    have e : (a 0).val = n.val := (drop12_eq_iff h a n).mp (Finset.mem_filter.mp ha).2
    refine congrArg f (funext fun ax => ?_)
    match ax with
    | ⟨0, _⟩ => exact Fin.ext e
    | ⟨1, _⟩ => rfl
    | ⟨2, _⟩ => rfl

/-- The traces, read at a sample. -/
theorem trv_apply (X : FVec Ideal S32x64x16384 .f32) (n : Fin 32) :
    RefValue.trv (F := Ideal) (RefValue.covv X) (ix1 n) = Whiten.tr (Whiten.slice X n) := by
  unfold RefValue.trv
  rw [hostReduceAdd_apply, hostReduceAdd12_apply, constant_apply, Ideal.ofBits_zero_f32, zero_add]
  unfold Whiten.tr
  refine Finset.sum_congr rfl fun c _ => Finset.sum_congr rfl fun d _ => ?_
  rw [select_apply, broadcastInDim_scalar_apply, constant_apply, Ideal.ofBits_zero_f32, covv_apply]
  rw [broadcastInDim_apply ![1, 2] _ _ (ix3 n c d) (ix2 c d) (by
    intro a
    match a with
    | ⟨0, _⟩ => rfl
    | ⟨1, _⟩ => rfl)]
  rw [diag_apply]

/-- The trace reciprocals, read at an index. -/
theorem rtrv_apply (X : FVec Ideal S32x64x16384 .f32) (n : Fin 32) (u v : Fin 1) :
    RefValue.rtrv (F := Ideal) (RefValue.covv X) (ix3 n u v) = Whiten.rtr (Whiten.slice X n) := by
  unfold RefValue.rtrv
  rw [hostDivf_apply, broadcastInDim_scalar_apply, constant_apply]
  rw [broadcastInDim_apply ![0] _ _ (ix3 n u v) (ix1 n) (by
    intro a
    match a with
    | ⟨0, _⟩ => rfl)]
  rw [trv_apply]
  rfl

/-- The normalised covariances, read at an index. -/
theorem covnv_apply (X : FVec Ideal S32x64x16384 .f32) (n : Fin 32) (c d : Fin 64) :
    RefValue.covnv (F := Ideal) (RefValue.covv X) (ix3 n c d) = Whiten.covn (Whiten.slice X n) c d := by
  unfold RefValue.covnv
  rw [mulf_apply, covv_apply]
  rw [broadcastInDim_apply ![0, 1, 2] _ _ (ix3 n c d) (ix3 n (0 : Fin 1) (0 : Fin 1)) (by
    intro a
    match a with
    | ⟨0, _⟩ => rfl
    | ⟨1, _⟩ => rfl
    | ⟨2, _⟩ => rfl)]
  rw [rtrv_apply]
  rfl

theorem covnv_eq (X : FVec Ideal S32x64x16384 .f32) :
    RefValue.covnv (F := Ideal) (RefValue.covv X) = Whiten.covnArr X := by
  funext i
  obtain ⟨n, c, d, rfl⟩ : ∃ (n : Fin 32) (c : Fin 64) (d : Fin 64), i = ix3 n c d := ⟨i 0, i 1, i 2, eq_ix3 i⟩
  rw [covnv_apply]
  rfl

theorem rtrv_eq (X : FVec Ideal S32x64x16384 .f32) :
    RefValue.rtrv (F := Ideal) (RefValue.covv X) = Whiten.rtrArr X := by
  funext i
  obtain ⟨n, u, v, rfl⟩ : ∃ (n : Fin 32) (u : Fin 1) (v : Fin 1), i = ix3 n u v := ⟨i 0, i 1, i 2, eq_ix3 i⟩
  rw [rtrv_apply]
  rfl

end Cert.ReferenceIdeal.RefCov

end
-- ==== Proof.RefOut.lean ====
/-
  The reference's last stage read entry by entry. For a batch X of 32 samples of 64 channels by 16384 positions and a
  batch Wm of 64 by 64 matrices, the staged term divides each row's sum by 16384 (the row mean), subtracts it from the
  row (the centred batch), multiplies sample n's matrix with sample n's centred rows, lays the 16384 positions out as a
  128 by 128 image (position 128 h + w at row h, column w), and scales and shifts channel c by the c-th entries of two
  vectors of length 64. Entry (n, c, h, w) of the result is therefore
  (∑ d, Wm[n, c, d] * (X[n, d, 128 h + w] - mean X[n, d, ·])) * a1[c] + a2[c], which is the specification's output.
-/
import proofs.«102350_j29016799052491_1_alg».proof.Proof.RefTerm
import proofs.«102350_j29016799052491_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefOut

open Idealize.ShloMosaic Idealize.ShloMosaic.ValueIdx Cert.ReferenceIdeal

/-- The mean of row (n, c): the row's sum over the 16384 positions, divided by 16384. -/
theorem meanv_apply (X : FVec Ideal S32x64x16384 .f32) (n : Fin 32) (c : Fin 64) :
    RefValue.meanv (F := Ideal) X (ix3 n c (0 : Fin 1)) = Whiten.mean (Whiten.slice X n) c := by
  unfold RefValue.meanv Whiten.mean Whiten.n16384
  rw [hostDivf_apply, broadcastInDim_scalar_apply, constant_apply]
  rw [broadcastInDim_apply _ _ _ (ix3 n c (0 : Fin 1)) (ix2 n c)
    (by intro a; match a with | ⟨0, _⟩ => rfl | ⟨1, _⟩ => rfl)]
  rw [hostReduceAdd_apply,
    Ideal.hostReduceAdd_single _ (by decide : S32x64x16384.Reduces [2] S32x64)]
  rw [constant_apply, Ideal.ofBits_zero_f32, zero_add]
  refine congrArg (fun t => Ideal.div t (Ideal.ofBits .f32 0x46800000#32)) ?_
  refine Finset.sum_congr rfl fun (k : Fin 16384) _ => ?_
  show X _ = X (ix3 n c k)
  refine congrArg X (funext fun a => Fin.ext ?_)
  match a with
  | ⟨0, _⟩ => rfl
  | ⟨1, _⟩ => rfl
  | ⟨2, _⟩ => rfl

/-- The centred batch at (n, c, s): the entry minus its row's mean. -/
theorem xcv_apply (X : FVec Ideal S32x64x16384 .f32) (n : Fin 32) (c : Fin 64) (s : Fin 16384) :
    RefValue.xcv (F := Ideal) X (ix3 n c s) = Whiten.xc (Whiten.slice X n) c s := by
  unfold RefValue.xcv Whiten.xc
  rw [subf_apply]
  rw [broadcastInDim_apply _ _ _ (ix3 n c s) (ix3 n c (0 : Fin 1))
    (by intro a; match a with | ⟨0, _⟩ => rfl | ⟨1, _⟩ => rfl | ⟨2, _⟩ => rfl)]
  rw [meanv_apply]
  rfl

/-- The batched product of a stack of 64 by 64 matrices with a stack of 64 by 16384 matrices, at (n, c, s). -/
theorem dot_apply (Wm : FVec Ideal S32x64x64 .f32) (Y : FVec Ideal S32x64x16384 .f32) (n : Fin 32) (c : Fin 64)
    (s : Fin 16384) :
    Host.dotGeneral (F := Ideal) dot_S32x64x64_S32x64x16384_S32x64x16384_2_1_1_2_0_0 none Wm Y (ix3 n c s)
      = ∑ d : Fin 64, Wm (ix3 n c d) * Y (ix3 n d s) :=
  StackMember.dotGeneral_stack_apply (G := 32) (m := 64) (n := 16384) (k := 64) _ none Wm Y n c s

/-- The image layout: entry (n, c, h, w) of the reshaped array is entry (n, c, 128 h + w) of the operand. -/
theorem reshape_apply {α : Type} (D : S32x64x16384.Idx → α) (n : Fin 32) (c : Fin 64) (h w : Fin 128) :
    shapeCast S32x64x128x128 D Facts₀.shapeCasts_S32x64x16384_S32x64x128x128 (ix4 n c h w)
      = D (ix3 n c (Whiten.pos h w)) := by
  refine shapeCast_apply D _ (ix4 n c h w) (ix3 n c (Whiten.pos h w)) ?_
  rw [Shape.rowMajor_val_three, Shape.rowMajor_val_four]
  show (n.val * 64 + c.val) * 16384 + (h.val * 128 + w.val) = ((n.val * 64 + c.val) * 128 + h.val) * 128 + w.val
  omega

/-- A per-channel vector spread over the batch and the image reads its channel's entry. -/
theorem chan_apply {α : Type} (a : S64.Idx → α) (n : Fin 32) (c : Fin 64) (h w : Fin 128) :
    broadcastInDim S32x64x128x128 ![0, 1, 2, 3] Facts₀.bcast_S1x64x1x1_S32x64x128x128_0_1_2_3
        (broadcastInDim S1x64x1x1 ![1] Facts₀.bcast_S64_S1x64x1x1_1 a) (ix4 n c h w) = a (ix1 c) := by
  rw [broadcastInDim_apply _ _ _ (ix4 n c h w) (ix4 (0 : Fin 1) c (0 : Fin 1) (0 : Fin 1))
    (by intro a; match a with | ⟨0, _⟩ => rfl | ⟨1, _⟩ => rfl | ⟨2, _⟩ => rfl | ⟨3, _⟩ => rfl)]
  rw [broadcastInDim_apply _ _ _ (ix4 (0 : Fin 1) c (0 : Fin 1) (0 : Fin 1)) (ix1 c)
    (by intro a; match a with | ⟨0, _⟩ => rfl)]

/-- The staged output equals the specification's output, entry by entry. -/
theorem outv_eq (X : FVec Ideal S32x64x16384 .f32) (Wm : FVec Ideal S32x64x64 .f32) (a1 a2 : FVec Ideal S64 .f32) :
    RefValue.outv (F := Ideal) X Wm a1 a2 = Whiten.outArr4 X Wm a1 a2 := by
  funext i
  obtain ⟨n, c, h, w, rfl⟩ : ∃ (n : Fin 32) (c : Fin 64) (h : Fin 128) (w : Fin 128), i = ix4 n c h w :=
    ⟨i 0, i 1, i 2, i 3, eq_ix4 i⟩
  unfold RefValue.outv Whiten.outArr4
  rw [addf_apply, mulf_apply, reshape_apply, chan_apply, chan_apply, dot_apply]
  show _ = Whiten.out (Whiten.slice X n) (Whiten.mat Wm n) (fun c => a1 (ix1 c)) (fun c => a2 (ix1 c)) c (Whiten.pos h w)
  unfold Whiten.out
  refine congrArg (fun t => t * a1 (ix1 c) + a2 (ix1 c)) ?_
  refine Finset.sum_congr rfl fun d _ => ?_
  rw [xcv_apply]
  rfl

end Cert.ReferenceIdeal.RefOut

end
-- ==== Proof.Bridge.lean ====
/-
  The two programs compute one function. The kernel program's result is the specification's output (in the three-axis
  layout, reshaped) over the whitening matrices the host iteration makes from the specification's normalised covariances
  and trace reciprocals; the reference's result is its last stage over its own whitening matrices of its own
  covariances. Its covariance stages are the specification's, its iteration is the kernel program's iteration, its last
  stage is the specification's output in the four-axis layout, and the kernel program's reshape of the three-axis
  output is that same four-axis output.
-/
import proofs.«102350_j29016799052491_1_alg».proof.Proof.KTerm
import proofs.«102350_j29016799052491_1_alg».proof.Proof.RefTerm
import proofs.«102350_j29016799052491_1_alg».proof.Proof.Chain
import proofs.«102350_j29016799052491_1_alg».proof.Proof.Reshape
import proofs.«102350_j29016799052491_1_alg».proof.Proof.RefCov
import proofs.«102350_j29016799052491_1_alg».proof.Proof.RefOut

noncomputable section

namespace Cert.Bridge

open Idealize.ShloMosaic
open Cert.KernelIdeal (S32x64x128x128 S64)

/-- The kernel program's result and the reference's are equal, for all arguments. -/
theorem result_eq (a0 : FVec Ideal S32x64x128x128 .f32) (a1 a2 : FVec Ideal S64 .f32) :
    Cert.KernelIdeal.KValue.result a0 a1 a2 = Cert.ReferenceIdeal.RefValue.result (F := Ideal) a0 a1 a2 := by
  unfold Cert.KernelIdeal.KValue.result Cert.ReferenceIdeal.RefValue.result
  rw [Cert.Reshape.out4_outArr, Cert.ReferenceIdeal.RefOut.outv_eq, Cert.ReferenceIdeal.RefCov.covnv_eq,
    Cert.ReferenceIdeal.RefCov.rtrv_eq, Cert.Chain.wmv_eq]
  rfl

end Cert.Bridge

end
-- ==== Proof.lean ====
/-
  Per-sample whitening of a batch of 32 samples of 64 channels by 16384 positions, with a per-channel scale and shift,
  against its reference, over the extended reals.

  Both programs centre each sample's rows by their means, form the regularised covariance (the Gram matrix of the
  centred rows over 16384, plus a small multiple of the identity), normalise it by the reciprocal of its trace, run
  five Newton-Schulz steps from the identity on the host, scale the last iterate by the square root of the trace
  reciprocal, multiply the centred sample by that whitening matrix, and scale and shift each channel. The kernel
  program does the covariance and the final product one sample per grid point in two kernels and multiplies by the
  float 2⁻¹⁴ where the reference divides by 16384.0 (the same operation on every extended real); it writes the
  identity's entries by a signed conversion of the widened diagonal bit where the reference converts the bit unsigned
  (the same numbers 0 and 1); it takes the trace as row sums then a column sum where the reference sums over both axes
  at once (one sum, regrouped); and it asks the host products for the highest precision, which the exact product does
  not see. No step needs the inputs to be finite.

  The frames of the two kernel programs are the generated launch over @main's five segments; the kernel program's
  value run is the same launch with the result array named; the reference's run is read off its operation list.
-/
import proofs.«102350_j29016799052491_1_alg».proof.Defs
import proofs.«102350_j29016799052491_1_alg».proof.Proof.Gen.Kernel
import proofs.«102350_j29016799052491_1_alg».proof.Proof.Gen.Kernel.Skeleton
import proofs.«102350_j29016799052491_1_alg».proof.Proof.Gen.Kernel.Launch
import proofs.«102350_j29016799052491_1_alg».proof.Proof.Gen.Kernel.Points
import proofs.«102350_j29016799052491_1_alg».proof.Proof.Gen.Kernel.Frame
import proofs.«102350_j29016799052491_1_alg».proof.Proof.Gen.KernelIdeal
import proofs.«102350_j29016799052491_1_alg».proof.Proof.Gen.KernelIdeal.Skeleton
import proofs.«102350_j29016799052491_1_alg».proof.Proof.Gen.KernelIdeal.Launch
import proofs.«102350_j29016799052491_1_alg».proof.Proof.Gen.KernelIdeal.Points
import proofs.«102350_j29016799052491_1_alg».proof.Proof.Gen.KernelIdeal.Frame
import proofs.«102350_j29016799052491_1_alg».proof.Proof.Gen.ReferenceIdeal
import proofs.«102350_j29016799052491_1_alg».proof.Proof.Gen.Pre_finite_inputs
import proofs.«102350_j29016799052491_1_alg».proof.Proof.KRun
import proofs.«102350_j29016799052491_1_alg».proof.Proof.KResult
import proofs.«102350_j29016799052491_1_alg».proof.Proof.RefRun
import proofs.«102350_j29016799052491_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the same result: the kernel program's result array is
    the specification's function of its arguments, the reference's is its own term of the same arguments, and the two
    are one function. -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KResult.W5_result m ρ c), (h c).2⟩)
      (Cert.KernelIdeal.KRun.run_v55 (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    exact (Cert.Bridge.result_eq _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
